-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 512]⟩ ⟨2, ![2048, 1024]⟩ (Layout.meshBlock [2, 2] ![[0], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1024, 1]⟩ ⟨2, ![2048, 1]⟩ (Layout.meshBlock [2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x512 : Shape := ⟨2, ![1024, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel

variable [Facts]

def fn {F : FTy → Type} [FloatOps F] (main_arg0 : FVec F S1024x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  main_v3
-- ==== Pre_finite_inputs_ReferenceIdeal.lean ====
abbrev S2048x1024 : Shape := ⟨2, ![2048, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel

variable [Facts]

def fn {F : FTy → Type} [FloatOps F] (main_arg0 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  main_v3
-- ==== Kernel.lean ====
abbrev S1024x512 : Shape := ⟨2, ![1024, 512]⟩
abbrev S1024x1 : Shape := ⟨2, ![1024, 1]⟩
abbrev S2x8x128 : Shape := ⟨3, ![2, 8, 128]⟩
abbrev S_ : Shape := ⟨0, ![]⟩
abbrev S8x128x512 : Shape := ⟨3, ![8, 128, 512]⟩
abbrev S8x128 : Shape := ⟨2, ![8, 128]⟩
abbrev S1x8x128 : Shape := ⟨3, ![1, 8, 128]⟩
abbrev S1024x8 : Shape := ⟨2, ![1024, 8]⟩
abbrev S1024x128 : Shape := ⟨2, ![1024, 128]⟩
abbrev S1024 : Shape := ⟨1, ![1024]⟩

abbrev nBuf : Space → Nat
  | .hbm => 2
  | .vmem => 3
  | .smem => 0
  | _ => 0

abbrev bufTy : (tb : Table) → Fin (tcTables nBuf tb) → BufTy
  | .hbm, ⟨0, _⟩ => ⟨S1024x512, .f32⟩
  | .hbm, ⟨1, _⟩ => ⟨S1024x1, .f32⟩
  | .local _ .vmem, ⟨0, _⟩ => ⟨S1024x512, .f32⟩
  | .local _ .vmem, ⟨1, _⟩ => ⟨S1024x1, .f32⟩
  | .local _ .vmem, ⟨2, _⟩ => ⟨S2x8x128, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4 : BitVec 32 := 2#32
  let v8 : BitVec 32 := Scalar.muli v2 c2_i32_4
  let v9 : BitVec 32 := Scalar.addi c0_i32 v8
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5 : BitVec 32 := 1#32
  let v10 : BitVec 32 := Scalar.muli v6 c1_i32_5
  let v11 : BitVec 32 := Scalar.addi v9 v10
  v11.toNat
def k0_dev2 (d0 : Dev nD) : Nat :=
  let c0_i32_14 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_13 : BitVec 32 := 2#32
  let v19 : BitVec 32 := Scalar.muli v2 c2_i32_13
  let v20 : BitVec 32 := Scalar.addi c0_i32_14 v19
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_15 : BitVec 32 := 1#32
  let v21 : BitVec 32 := Scalar.muli v6 c1_i32_15
  let v22 : BitVec 32 := Scalar.addi v20 v21
  v22.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  shapeCasts_S1024x512_S8x128x512 : S1024x512.ShapeCasts S8x128x512
  reduces_S8x128x512_S8x128 : S8x128x512.Reduces [2] S8x128
  inb_S2x8x128_S1x8x128_0_0_0 : ∀ a, (![0, 0, 0] : Fin 3 → Nat) a + S1x8x128.size a ≤ S2x8x128.size a
  h_S1x8x128 : 0 < S1x8x128.numel
  shapeCasts_S1x8x128_S8x128 : S1x8x128.ShapeCasts S8x128
  shapeCasts_S8x128_S1x8x128 : S8x128.ShapeCasts S1x8x128
  inb_S2x8x128_S1x8x128_1_0_0 : ∀ a, (![1, 0, 0] : Fin 3 → Nat) a + S1x8x128.size a ≤ S2x8x128.size a
  squeezes_S1x8x128_S8x128 : S1x8x128.Squeezes S8x128
  iota_S1024x8_d0_w32 : S1024x8.Iotas .tc 32 [0]
  natLt_1_32 : 1 < 32
  iota_S1024x8_d1_w32 : S1024x8.Iotas .tc 32 [1]
  iota_S1024x128_d0_w32 : S1024x128.Iotas .tc 32 [0]
  broadcasts_S1024x128_S1024x128 : S1024x128.Broadcasts S1024x128
  iota_S1024x128_d1_w32 : S1024x128.Iotas .tc 32 [1]
  reduces_S1024x128_S1024 : S1024x128.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  dot_S1024x8_S8x128_S1024x128_1_0_0_1_n_n_wf : DotDims.WF S1024x8 S8x128 S1024x128 [1] [0] [0] [1] [] []
  hcc0_scratch1 : 2 + S_.numel ≤ 4
  hcc0_scratch2 : 3 + S_.numel ≤ 4
  k0_dev1_lt : ∀ d0 : Dev nD, (k0_dev1 d0) < nD
  k0_dev2_lt : ∀ d0 : Dev nD, (k0_dev2 d0) < nD
  hstage0_0 : ∀ j, (stage0_0 j).IsWhole
  hstage0_1 : ∀ j, (stage0_1 j).IsWhole

variable [Facts₀]

abbrev cc0_scratch1 : DmaSems sig S_ := SemArray.consecutive 2 S_ hcc0_scratch1
abbrev cc0_scratch2 : DmaSems sig S_ := SemArray.consecutive 3 S_ hcc0_scratch2
def dot_S1024x8_S8x128_S1024x128_1_0_0_1_n_n : DotDims S1024x8 S8x128 S1024x128 where
  lhsContracting := [1]
  rhsContracting := [0]
  lhsNonContracting := [0]
  rhsNonContracting := [1]
  lhsBatch := []
  rhsBatch := []
  wf := dot_S1024x8_S8x128_S1024x128_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2048x1024 : Shape := ⟨2, ![2048, 1024]⟩
abbrev S_ : Shape := ⟨0, ![]⟩
abbrev S2048 : Shape := ⟨1, ![2048]⟩
abbrev S2048x1 : Shape := ⟨2, ![2048, 1]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S_, .f32⟩
  | .hbm, ⟨2, _⟩ => ⟨S2048, .f32⟩
  | .hbm, ⟨3, _⟩ => ⟨S2048x1, .f32⟩
  | .hbm, ⟨4, _⟩ => ⟨S_, .f32⟩
  | .hbm, ⟨5, _⟩ => ⟨S2048x1, .f32⟩
  | .hbm, ⟨6, _⟩ => ⟨S2048x1, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  reducesTo_S2048x1024_S2048_d1 : S2048x1024.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)

variable [Facts₀]

class Facts : Prop extends Facts₀ where

variable [Facts]
-- ==== Proof.Peer.lean ====
import Mathlib.Data.Fin.Basic
import Mathlib.Tactic.DeriveFintype

/-! The partner of a device on the 2 × 2 mesh: the device with the same first coordinate and the other second
    coordinate. Devices are numbered row-major, so device `c` sits at `(c / 2, c % 2)` and its partner is
    `2 · (c / 2) + 1 − c % 2`; the map is an involution without fixed points. -/

namespace Cert.Mesh

def peer (c : Fin 4) : Fin 4 := ⟨2 * (c.val / 2) + 1 - c.val % 2, by omega⟩

theorem peer_val (c : Fin 4) : (peer c).val = 2 * (c.val / 2) + 1 - c.val % 2 := rfl
theorem peer_peer (c : Fin 4) : peer (peer c) = c := by revert c; decide
theorem peer_ne (c : Fin 4) : peer c ≠ c := by revert c; decide
theorem peer_div (c : Fin 4) : (peer c).val / 2 = c.val / 2 := by revert c; decide
theorem peer_mod (c : Fin 4) : (peer c).val % 2 = 1 - c.val % 2 := by revert c; decide

def peerEquiv : Fin 4 ≃ Fin 4 := ⟨peer, peer, peer_peer, peer_peer⟩

end Cert.Mesh
-- ==== Proof.KernelProtocol.lean ====
import proofs.«900961_g7700000000000962_dist_mean_ax1_xy_m1024_n512_v7x_xy2x2_bf16_1_alg».proof.Defs
import proofs.«900961_g7700000000000962_dist_mean_ax1_xy_m1024_n512_v7x_xy2x2_bf16_1_alg».proof.Proof.Gen.Kernel
import proofs.«900961_g7700000000000962_dist_mean_ax1_xy_m1024_n512_v7x_xy2x2_bf16_1_alg».proof.Proof.Gen.Kernel.Skeleton
import proofs.«900961_g7700000000000962_dist_mean_ax1_xy_m1024_n512_v7x_xy2x2_bf16_1_alg».proof.Proof.Gen.Kernel.Launch
import proofs.«900961_g7700000000000962_dist_mean_ax1_xy_m1024_n512_v7x_xy2x2_bf16_1_alg».proof.Proof.Gen.Kernel.Points
import proofs.«900961_g7700000000000962_dist_mean_ax1_xy_m1024_n512_v7x_xy2x2_bf16_1_alg».proof.Proof.Peer
import Idealize.ShloMosaic.Lib.Pipeline.Launch
import Idealize.ShloMosaic.Lib.Pipeline.Kit
import Idealize.ShloMosaic.Lib.Pipeline.Value
import Idealize.ShloMosaic.Lib.Tactic

/-!
# The exchange between partner devices

On the 2 × 2 mesh every device `c` has one partner `peer c`: the device in the same mesh row holding the
other half of the columns. Each device reduces its block of `x` to an 8 × 128 tile of row sums, kept in slot 0 of
a two-slot buffer, and the two partners swap tiles: `c` copies its slot 0 into slot 1 of `peer c`.

Three semaphores per device carry the exchange, each with ONE duty in ONE round:
* the entry cell of `c`, signalled one unit by `peer c`; with the unit `peer c` hands `c` slot 1 of its own
  buffer (the landing area) and the fact that its receive cell is at round 0 — exactly what `c`'s copy needs;
* the send cell of `c`, paid by `c`'s own copy once slot 0 is read: slot 0 comes back, still holding `c`'s tile;
* the receive cell of `c`, paid by `peer c`'s copy once slot 1 is written: slot 1 comes back holding `peer c`'s tile.

A device waits on its entry cell (level 1) while it still owes its partner's receive cell (level 2) the copy's
credit; every other wait happens with nothing owed. Levels increase along every "waits while owing" edge, so no
cycle of waiting devices exists.
-/

noncomputable section

namespace Cert.KernelRun

open Cert.Kernel Cert.Kernel.Gen
open Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy beside the exchange's (duties named by `Bool`, only `false` used) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## The partner -/

/-- The partner of a device, as a device of this mesh. -/
abbrev pr (c : Dev nD) : Dev nD := peer c

theorem pr_pr (c : Dev nD) : pr (pr c) = c := peer_peer c
theorem pr_ne (c : Dev nD) : pr c ≠ c := peer_ne c

/-- Both device-id chains of the body (the signal's and the copy's) compute the partner. -/
theorem dev1_eq (c : Dev nD) : (⟨k0_dev1 c, k0_dev1_lt c⟩ : Dev nD) = pr c := Fin.ext (k0_dev1_eq c)
theorem dev2_eq (c : Dev nD) : (⟨k0_dev2 c, k0_dev2_lt c⟩ : Dev nD) = pr c := Fin.ext (k0_dev2_eq c)

def prEquiv : Dev nD ≃ Dev nD := ⟨pr, pr, pr_pr, pr_pr⟩

/-! ## The buffers, the two slots, the cells -/

abbrev xM : Memref sig .tc .vmem S1024x512 .f32 := Memref.whole cc0_stg0_0
abbrev oM : Memref sig .tc .vmem S1024x1 .f32 := Memref.whole cc0_stg1_0
abbrev cM : Memref sig .tc .vmem S2x8x128 .f32 := Memref.whole cc0_scratch0

/-- Slot `j` of the two-slot buffer, as the rectangle `[j, j+1) × [0, 8) × [0, 128)`. -/
abbrev rect0 : Rect S2x8x128 := Rect.unit (s := S2x8x128) ![0, 0, 0] S1x8x128.size inb_S2x8x128_S1x8x128_0_0_0
abbrev rect1 : Rect S2x8x128 := Rect.unit (s := S2x8x128) ![1, 0, 0] S1x8x128.size inb_S2x8x128_S1x8x128_1_0_0

/-- The copy's two ends: slot 0 (source) and slot 1 (destination) as 8 × 128 memrefs. -/
abbrev srcM : Memref sig .tc .vmem S8x128 .f32 := (cM.slice rect0 (fun _ => rfl)).squeeze S8x128 squeezes_S1x8x128_S8x128
abbrev dstM : Memref sig .tc .vmem S8x128 .f32 := (cM.slice rect1 (fun _ => rfl)).squeeze S8x128 squeezes_S1x8x128_S8x128

/-- The entry semaphore (the runtime's, unscoped), the send and receive DMA semaphores (scoped scratch). -/
abbrev barS : Sem sig := (SemArray.scalar (sig.barrier 0 rfl) : Sems sig S_).sem
abbrev sendS : DmaSems sig S_ := cc0_scratch1
abbrev recvS : DmaSems sig S_ := cc0_scratch2

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The kernel's own (scoped) semaphores as the launch indexes them: send, receive; -/
abbrev osem : Fin 2 → SemLoc sig := fun | 0 => .dma sendS.sem | 1 => .dma recvS.sem
/-- all three of the exchange's: entry, send, receive. -/
abbrev csem : Fin 3 → SemLoc sig := fun | 0 => .reg barS | 1 => .dma sendS.sem | 2 => .dma recvS.sem
abbrev kcell (ck : Dev nD × Fin 3) : GSem nD τ sig := ((ck.1 : Thread nD τ), csem ck.2)

/-- The copy's credit: what a transfer of one slot adds to each of its two semaphores. -/
abbrev N : ℕ := (dstM : Memref sig .tc .vmem S8x128 .f32).view.dmaCredit
theorem N_pos : 0 < N := View.dmaCredit_pos _ (by decide)

/-! ## Contents -/

/-- Device `c`'s block of `x`, as its staging buffer holds it. -/
def xstg (c : Dev nD) : (cc0_stg0_0 : Ref sig .tc).ty.Contents (Elt F) :=
  (win0_0.blk (0 : Fin 1)).view.read (Elt F) ((s₀ m ρ).mem ((c : Thread nD τ).loc main_arg0))

/-- An index of the two-slot buffer with its slot coordinate forgotten. -/
def lower (i : S2x8x128.Idx) : S1x8x128.Idx := fun a => match a with
  | ⟨0, _⟩ => ⟨0, Nat.zero_lt_one⟩
  | ⟨1, _⟩ => ⟨(i 1).val, (i 1).isLt⟩
  | ⟨2, _⟩ => ⟨(i 2).val, (i 2).isLt⟩

/-- Device `c`'s tile of row sums laid over BOTH slots of the buffer (the same 8 × 128 values in each): whichever
    slot a tile sits in, the buffer agrees with this function there. -/
def tile (c : Dev nD) : (cc0_scratch0 : Ref sig .tc).ty.Contents (Elt F) := fun i => k0_pay2 (xstg m ρ c) (lower i)

/-- The selector and the diagonal mask: pure constants of the body. -/
def selV : FVec F S1024x8 .f32 := k0_pay3 (F := F) (iota .tc S1024x8 32 [0] iota_S1024x8_d0_w32) 128#32
def diagV : IVec S1024x128 1 := k0_pay4

/-- The kernel's result on device `c`: the body's last payload of its own tile and its partner's. -/
def outAt (c : Dev nD) : (cc0_stg1_0 : Ref sig .tc).ty.Contents (Elt F) :=
  k0_pay1 (selV (F := F)) diagV (k0_pay2 (xstg m ρ c)) (k0_pay2 (xstg m ρ (pr c)))

/-- Slot 0 and slot 1 of device `c`'s buffer at contents `f` (only `f`'s values on the slot matter). -/
def srcPts (c : Dev nD) (f : Buf (Elt F) ((srcM : Memref sig .tc .vmem S8x128 .f32).view.loc (c : Thread nD τ))) : sProp 𝕄 :=
  (srcM : Memref sig .tc .vmem S8x128 .f32).view.loc (c : Thread nD τ) ↦[(srcM : Memref sig .tc .vmem S8x128 .f32).view.set]{fullShare} f
def dstPts (c : Dev nD) (f : Buf (Elt F) ((dstM : Memref sig .tc .vmem S8x128 .f32).view.loc (c : Thread nD τ))) : sProp 𝕄 :=
  (dstM : Memref sig .tc .vmem S8x128 .f32).view.loc (c : Thread nD τ) ↦[(dstM : Memref sig .tc .vmem S8x128 .f32).view.set]{fullShare} f
def xPts (c : Dev nD) : sProp 𝕄 :=
  (xM : Memref sig .tc .vmem S1024x512 .f32).view.loc (c : Thread nD τ) ↦[(xM : Memref sig .tc .vmem S1024x512 .f32).view.set]{fullShare} xstg m ρ c

instance srcPts_storable (c : Dev nD) (f) : BI.Storable (upEmb : UEmb _ 𝕄) (srcPts (F := F) c f) := by unfold srcPts; infer_instance
instance dstPts_storable (c : Dev nD) (f) : BI.Storable (upEmb : UEmb _ 𝕄) (dstPts (F := F) c f) := by unfold dstPts; infer_instance

/-! ## The schedule -/

/-- With its unit on `o`'s entry cell, `pr o` hands `o` its own slot 1 and that its receive cell is at round 0. -/
def barPay (o : Dev nD) : sProp 𝕄 := iprop((∃ f, dstPts (pr o) f) ∗ reached ER (recvCell (pr o)) 0)
/-- The landing on `o`: slot 1 holding its partner's tile. -/
def recvPay (o : Dev nD) : sProp 𝕄 := dstPts o (tile m ρ (pr o))
/-- The departure from `o`: slot 0 back, holding its own tile. -/
def sendPay (o : Dev nD) : sProp 𝕄 := srcPts o (tile m ρ o)

abbrev IsBar (g : GSem nD τ sig) : Prop := g.1.2 = .tc ∧ g.2 = .reg barS
abbrev IsXfer (g : GSem nD τ sig) : Prop := g.1.2 = .tc ∧ (g.2 = .dma sendS.sem ∨ g.2 = .dma recvS.sem)

/-- One round, round 0, one duty (`false`) per cell: an entry cell's of one unit, a send or receive cell's of the
    copy's credit. -/
def meshRd : Rounds.Schedule (GSem nD τ sig) Bool 𝕄 where
  duties g r := if r = 0 ∧ (IsBar g ∨ IsXfer g) then {false} else ∅
  unitless _ := False
  amount g _ _ := if g.2 = .reg barS then 1 else N
  payload g _ _ :=
    if g.2 = .reg barS then barPay g.1.1
    else if g.2 = .dma recvS.sem then recvPay m ρ g.1.1
    else if g.2 = .dma sendS.sem then sendPay m ρ g.1.1
    else iprop(emp)
  amount_pos g _ _ _ := by
    by_cases h : g.2 = .reg barS
    · rw [if_pos h]; exact Nat.one_pos
    · rw [if_neg h]; exact N_pos

instance meshRd_payload_storable (g : GSem nD τ sig) (r : ℕ) (d : Bool) :
    BI.Storable (upEmb : UEmb _ 𝕄) ((meshRd (F := F) m ρ).payload g r d) := by
  show BI.Storable upEmb (if g.2 = .reg barS then barPay g.1.1 else if g.2 = .dma recvS.sem then recvPay m ρ g.1.1
    else if g.2 = .dma sendS.sem then sendPay m ρ g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

theorem duties_bar : (meshRd (F := F) m ρ).duties (barCell c) 0 = {false} := by
  dsimp only [meshRd]; exact if_pos ⟨rfl, .inl ⟨rfl, rfl⟩⟩
theorem duties_send : (meshRd (F := F) m ρ).duties (sendCell c) 0 = {false} := by
  dsimp only [meshRd]; exact if_pos ⟨rfl, .inr ⟨rfl, .inl rfl⟩⟩
theorem duties_recv : (meshRd (F := F) m ρ).duties (recvCell c) 0 = {false} := by
  dsimp only [meshRd]; exact if_pos ⟨rfl, .inr ⟨rfl, .inr rfl⟩⟩
theorem duties_later (g : GSem nD τ sig) : ∀ r, 1 ≤ r → (meshRd (F := F) m ρ).duties g r = ∅ :=
  fun r hr => by dsimp only [meshRd]; rw [if_neg fun h => by omega]

theorem amount_bar (d : Bool) : (meshRd (F := F) m ρ).amount (barCell c) 0 d = 1 := by dsimp only [meshRd]; exact if_pos rfl
theorem amount_send (d : Bool) : (meshRd (F := F) m ρ).amount (sendCell c) 0 d = N := by dsimp only [meshRd]; exact if_neg send_ne_bar
theorem amount_recv (d : Bool) : (meshRd (F := F) m ρ).amount (recvCell c) 0 d = N := by dsimp only [meshRd]; exact if_neg recv_ne_bar

theorem expect_bar : (meshRd (F := F) m ρ).expect (barCell c) 0 = 1 := by
  unfold Schedule.expect Schedule.amountOf; rw [duties_bar, Finset.sum_singleton, amount_bar]
theorem expect_send : (meshRd (F := F) m ρ).expect (sendCell c) 0 = N := by
  unfold Schedule.expect Schedule.amountOf; rw [duties_send, Finset.sum_singleton, amount_send]
theorem expect_recv : (meshRd (F := F) m ρ).expect (recvCell c) 0 = N := by
  unfold Schedule.expect Schedule.amountOf; rw [duties_recv, Finset.sum_singleton, amount_recv]

theorem payload_bar (d : Bool) : (meshRd (F := F) m ρ).payload (barCell c) 0 d = barPay c := by
  dsimp only [meshRd]; rw [if_pos rfl]
theorem payload_send (d : Bool) : (meshRd (F := F) m ρ).payload (sendCell c) 0 d = sendPay m ρ c := by
  dsimp only [meshRd]; rw [if_neg send_ne_bar, if_neg send_ne_recv, if_pos rfl]
theorem payload_recv (d : Bool) : (meshRd (F := F) m ρ).payload (recvCell c) 0 d = recvPay m ρ c := by
  dsimp only [meshRd]; rw [if_neg recv_ne_bar, if_pos rfl]

/-- The rest of each cell's one-duty round, nothing taken yet: its payload. -/
theorem rest_bar : bigSep ((meshRd (F := F) m ρ).duties (barCell c) 0 \ ∅) (fun d => (meshRd (F := F) m ρ).payload (barCell c) 0 d) = barPay c := by
  rw [Finset.sdiff_empty, duties_bar, bigSep_singleton, payload_bar]
theorem rest_send : bigSep ((meshRd (F := F) m ρ).duties (sendCell c) 0 \ ∅) (fun d => (meshRd (F := F) m ρ).payload (sendCell c) 0 d) = sendPay m ρ c := by
  rw [Finset.sdiff_empty, duties_send, bigSep_singleton, payload_send]
theorem rest_recv : bigSep ((meshRd (F := F) m ρ).duties (recvCell c) 0 \ ∅) (fun d => (meshRd (F := F) m ρ).payload (recvCell c) 0 d) = recvPay m ρ c := by
  rw [Finset.sdiff_empty, duties_recv, bigSep_singleton, payload_recv]

end Sched

/-! ## What each device owes at launch; the levels -/

/-- Device `c` owes its partner's receive cell the copy's credit and its partner's entry cell one unit — summed so
    that the signal, which comes first, peels the last summand. -/
def O₁ (c : Dev nD) : CellTallies nD τ sig Unit := tallyAt (recvCell (pr c)) () N
def O₀ (c : Dev nD) : CellTallies nD τ sig Unit := O₁ c + tallyAt (barCell (pr c)) () 1

def L (g : GSem nD τ sig) : Finset Unit := if g.1.2 = .tc then {()} else ∅
/-- entry cells at 1, receive cells at 2, everything else (staging, send) at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) :
    g = recvCell (pr c) ∨ g = barCell (pr c) := by
  unfold O₀ O₁ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

/-- A wait on a staging cell (level 0) is below everything a device may still owe (levels 1 and 2). -/
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

/-- At its entry wait (level 1) a device owes its partner's receive credit only (level 2). -/
theorem mayWait_bar (c : Dev nD) :
    (levAts L lv : sProp 𝕄) ⊢ MayWait (c : Thread nD τ) (.reg barS) () (tallyAt (recvCell (pr c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (pr c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (pr c) ∧ u = ()
      · rw [h.1]; dsimp only [lv]; rw [if_neg recv_ne_bar, if_pos rfl]; decide
      · rw [if_neg h] at hg; exact absurd hg (Nat.lt_irrefl 0))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The whole two-slot buffer of device `c` at contents `f`. -/
def scrPts (c : Dev nD) (f : Buf (Elt F) ((cM : Memref sig .tc .vmem S2x8x128 .f32).view.loc (c : Thread nD τ))) : sProp 𝕄 :=
  (cM : Memref sig .tc .vmem S2x8x128 .f32).view.loc (c : Thread nD τ) ↦[(cM : Memref sig .tc .vmem S2x8x128 .f32).view.set]{fullShare} f

theorem scr_set : (cM : Memref sig .tc .vmem S2x8x128 .f32).view.set = Finset.univ := View.set_whole _
theorem scrPts_eq (c : Dev nD) (f : Buf (Elt F) ((c : Thread nD τ).loc cc0_scratch0)) :
    scrPts c f = (((c : Thread nD τ).loc cc0_scratch0) ↦{fullShare} f : sProp 𝕄) := by unfold scrPts; rw [scr_set]
theorem xPts_eq (c : Dev nD) : xPts m ρ c = (((c : Thread nD τ).loc cc0_stg0_0) ↦{fullShare} xstg m ρ c : sProp 𝕄) := by
  unfold xPts; rw [View.set_whole]

/-- The cells' invariants device `c`'s body opens, under the names `K` the launch allocated them at: its own three,
    its partner's entry cell (its signal) and its partner's receive cell (its copy). -/
def invs (K : Dev nD × Fin 3 → ℕ) (c : Dev nD) : sProp 𝕄 :=
  iprop(cellInv ER (meshRd m ρ) (K (c, 0)) (barCell c) ∗ cellInv ER (meshRd m ρ) (K (c, 1)) (sendCell c) ∗ cellInv ER (meshRd m ρ) (K (c, 2)) (recvCell c)
    ∗ cellInv ER (meshRd m ρ) (K (pr c, 0)) (barCell (pr c)) ∗ cellInv ER (meshRd m ρ) (K (pr c, 2)) (recvCell (pr c)))

instance invs_persistent (K : Dev nD × Fin 3 → ℕ) (c : Dev nD) : BI.Persistent (invs m ρ K c) := by unfold invs; infer_instance

/-- The exchange's ghost state device `c` starts from: the invariants; its positions at round 0 of its three cells;
    round 0 reached on the cells it pays and on its own send and receive cells; the three duty tokens it pays with —
    its partner's entry duty, its partner's receive duty, its own send duty. -/
def ghost (K : Dev nD × Fin 3 → ℕ) (c : Dev nD) : sProp 𝕄 :=
  iprop(invs m ρ K c
    ∗ atPos ER (barCell c) 0 ∅ 0 ∗ atPos ER (sendCell c) 0 ∅ 0 ∗ atPos ER (recvCell c) 0 ∅ 0
    ∗ reached ER (barCell (pr c)) 0 ∗ reached ER (recvCell (pr c)) 0 ∗ reached ER (sendCell c) 0 ∗ reached ER (recvCell c) 0
    ∗ dutyTok ER (barCell (pr c)) 0 false ∗ dutyTok ER (recvCell (pr c)) 0 false ∗ dutyTok ER (sendCell c) 0 false)

/-- What device `c`'s body starts from: that at some names, the credit for its two waits others pay (one unit on
    its entry cell, the copy's credit on its receive cell) and the level facts. -/
def start (c : Dev nD) : sProp 𝕄 :=
  iprop((∃ K, ghost m ρ K c) ∗ cred (tallyAt (barCell c) () 1) ∗ cred (tallyAt (recvCell c) () N) ∗ levAts L lv)

def Φ₀ (c : Dev nD) : sProp 𝕄 := iprop(start m ρ c ∗ ∃ f, scrPts c f)
/-- After the point: the two-slot buffer whole again, the two own cells at zero, closed. -/
def Φ₁ (c : Dev nD) : sProp 𝕄 := iprop((∃ f, scrPts c f) ∗ semVal (sendCell c) 0 ∗ semVal (recvCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

end Cert.KernelRun

end
-- ==== Proof.KernelSlots.lean ====
import proofs.«900961_g7700000000000962_dist_mean_ax1_xy_m1024_n512_v7x_xy2x2_bf16_1_alg».proof.Proof.KernelProtocol

/-!
# The two slots of the exchange buffer

The buffer is 2 × 8 × 128: slot `j` is the indices with first coordinate `j`. A tile (8 × 128 row sums, kept as
1 × 8 × 128) is laid into the buffer by a function that ignores the slot coordinate, so that "slot 0 holds the
tile" and "slot 1 holds the tile" are both "the buffer agrees with this function there". Stored through slot 0,
copied slot 0 → slot 1 across devices, and read back through either slot, the tile is recovered unchanged.
-/

noncomputable section

namespace Cert.KernelRun

open Cert.Kernel Cert.Kernel.Gen
open Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The two slots as sets of buffer indices -/

theorem src_set : (srcM : Memref sig .tc .vmem S8x128 .f32).view.set = rect0.set := by
  simp only [Memref.view_squeeze, Memref.view_slice, Memref.view_whole, View.set_reshape, View.set_slice_whole]

theorem dst_set : (dstM : Memref sig .tc .vmem S8x128 .f32).view.set = rect1.set := by
  simp only [Memref.view_squeeze, Memref.view_slice, Memref.view_whole, View.set_reshape, View.set_slice_whole]

/-- Slot 0 is the indices whose first coordinate is 0, slot 1 those where it is 1. -/
theorem mem_rect0 (i : S2x8x128.Idx) : i ∈ rect0.set ↔ (i 0).val = 0 := by
  rw [Rect.mem_set_unit]
  have h0 := (i 0).isLt; have h1 := (i 1).isLt; have h2 := (i 2).isLt
  constructor
  · intro h; have := h 0; simp at this; omega
  · intro h a
    match a with
    | ⟨0, _⟩ => simp; omega
    | ⟨1, _⟩ => simp; exact h1
    | ⟨2, _⟩ => simp; exact h2

theorem mem_rect1 (i : S2x8x128.Idx) : i ∈ rect1.set ↔ (i 0).val = 1 := by
  rw [Rect.mem_set_unit]
  have h0 := (i 0).isLt; have h1 := (i 1).isLt; have h2 := (i 2).isLt
  constructor
  · intro h; have := h 0; simp at this; omega
  · intro h a
    match a with
    | ⟨0, _⟩ => simp; omega
    | ⟨1, _⟩ => simp; exact h1
    | ⟨2, _⟩ => simp; exact h2

/-- The two slots partition the buffer. -/
theorem univ_sdiff_rect0 : (Finset.univ : Finset S2x8x128.Idx) \ rect0.set = rect1.set := by
  ext i
  rw [Finset.mem_sdiff, mem_rect0, mem_rect1]
  have h0 : (i 0).val < 2 := (i 0).isLt
  constructor
  · rintro ⟨-, h⟩; omega
  · intro h; exact ⟨Finset.mem_univ _, by omega⟩

/-! ## Forgetting the slot coordinate undoes placing a tile in a slot -/

theorem lower_emb0 (y : S1x8x128.Idx) : lower (rect0.emb y) = y := by
  funext a
  refine Fin.ext ?_
  match a with
  | ⟨0, _⟩ => have : (y 0).val < 1 := (y 0).isLt; show 0 = (y 0).val; omega
  | ⟨1, _⟩ => show (rect0.emb y 1).val = (y 1).val; rw [Rect.emb_apply]; simp
  | ⟨2, _⟩ => show (rect0.emb y 2).val = (y 2).val; rw [Rect.emb_apply]; simp

theorem lower_emb1 (y : S1x8x128.Idx) : lower (rect1.emb y) = y := by
  funext a
  refine Fin.ext ?_
  match a with
  | ⟨0, _⟩ => have : (y 0).val < 1 := (y 0).isLt; show 0 = (y 0).val; omega
  | ⟨1, _⟩ => show (rect1.emb y 1).val = (y 1).val; rw [Rect.emb_apply]; simp
  | ⟨2, _⟩ => show (rect1.emb y 2).val = (y 2).val; rw [Rect.emb_apply]; simp

/-! ## A tile stored, landed and read back -/

/-- Storing a device's tile through slot 0 makes the buffer agree with the tile function on slot 0. -/
theorem store_tile (c : Dev nD) (f : (cc0_scratch0 : Ref sig .tc).ty.Contents (Elt F)) :
    ∀ i ∈ (srcM : Memref sig .tc .vmem S8x128 .f32).view.set,
      ((cM : Memref sig .tc .vmem S2x8x128 .f32).access rect0).write (Elt F) f (k0_pay2 (xstg m ρ c)) Finset.univ i = tile m ρ c i := by
  intro i hi
  rw [src_set] at hi
  obtain ⟨y, rfl⟩ := View.exists_emb_of_mem_set ((cM : Memref sig .tc .vmem S2x8x128 .f32).access rect0) (i := i)
    (by rw [View.set_slice_whole]; exact hi)
  rw [View.write_emb_of_mem _ _ (Finset.mem_univ _)]
  show k0_pay2 (xstg m ρ c) y = k0_pay2 (xstg m ρ c) (lower (rect0.emb y))
  rw [lower_emb0]

/-- What the copy lands in slot 1 — slot 0 of a buffer holding a tile, read and written across — agrees with that
    tile function on slot 1: the tile function does not look at the slot coordinate. -/
theorem landed_tile (c : Dev nD) (fd : (cc0_scratch0 : Ref sig .tc).ty.Contents (Elt F)) :
    ∀ i ∈ (dstM : Memref sig .tc .vmem S8x128 .f32).view.set,
      (dstM : Memref sig .tc .vmem S8x128 .f32).view.write (Elt F) fd ((srcM : Memref sig .tc .vmem S8x128 .f32).view.read (Elt F) (tile m ρ c)) Finset.univ i
        = tile m ρ c i := by
  intro i hi
  obtain ⟨y, rfl⟩ := View.exists_emb_of_mem_set (dstM : Memref sig .tc .vmem S8x128 .f32).view hi
  rw [View.write_emb_of_mem _ _ (Finset.mem_univ _), View.read_apply]
  show tile m ρ c (rect0.emb (Shape.reshapeEquiv squeezes_S1x8x128_S8x128.numel_eq y)) = tile m ρ c (rect1.emb (Shape.reshapeEquiv squeezes_S1x8x128_S8x128.numel_eq y))
  unfold tile
  rw [lower_emb0, lower_emb1]

/-- A tile function read through slot `j` is the tile. -/
theorem read_slot0 (X : FVec F S1x8x128 .f32) :
    (cM : Memref sig .tc .vmem S2x8x128 .f32).view.readAt (Elt F) rect0.toLoadRect (fun i => X (lower i)) = X := by
  funext y
  show X (lower (rect0.emb y)) = X y
  rw [lower_emb0]
theorem read_slot1 (X : FVec F S1x8x128 .f32) :
    (cM : Memref sig .tc .vmem S2x8x128 .f32).view.readAt (Elt F) rect1.toLoadRect (fun i => X (lower i)) = X := by
  funext y
  show X (lower (rect1.emb y)) = X y
  rw [lower_emb1]

/-! ## The buffer cut into its slots and put together again -/

theorem scr_split (c : Dev nD) (f : Buf (Elt F) ((c : Thread nD τ).loc cc0_scratch0)) :
    (scrPts c f : sProp 𝕄) ⊢ iprop(srcPts c f ∗ dstPts c f) := by
  unfold scrPts srcPts dstPts
  rw [scr_set, src_set, dst_set, ← univ_sdiff_rect0]
  exact (pointsTo_split_subset (Finset.subset_univ _)).1

theorem scr_join (c : Dev nD) (f g : Buf (Elt F) ((c : Thread nD τ).loc cc0_scratch0)) :
    (iprop(srcPts c f ∗ dstPts c g) : sProp 𝕄) ⊢ iprop(∃ h, scrPts c h) := by
  unfold scrPts srcPts dstPts
  rw [scr_set, src_set, dst_set, ← univ_sdiff_rect0]
  iintro ⟨H0, H1⟩
  iexists _
  iapply (pointsTo_join_subset (Finset.subset_univ _))
  isplitl [H0]; · iexact H0
  iexact H1

end Cert.KernelRun

end
-- ==== Proof.KernelBody.lean ====
import proofs.«900961_g7700000000000962_dist_mean_ax1_xy_m1024_n512_v7x_xy2x2_bf16_1_alg».proof.Proof.KernelSlots

/-!
# One device's body

The body of the kernel on a device `c`, stepped effect by effect from the exchange's ghost state: the signal to the
partner's entry cell (handing over slot 1 of the buffer), the row sums stored in slot 0, the wait on the own entry
cell (the partner's slot 1 arrives), the copy of slot 0 into the partner's slot 1, the waits on the own send and
receive cells (slot 0 comes back holding the own tile, slot 1 holding the partner's), and the result computed from
the two tiles. Contents are carried throughout by the slot-independent tile function.
-/

noncomputable section

namespace Cert.KernelRun

open Cert.Kernel Cert.Kernel.Gen
open Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The accesses' footprints and what they read -/

abbrev r0x : Rect S1024x512 := Rect.unit (s := S1024x512) ![0, 0] S1024x512.size inb_S1024x512_S1024x512_0_0
abbrev r0o : Rect S1024x1 := Rect.unit (s := S1024x1) ![0, 0] S1024x1.size inb_S1024x1_S1024x1_0_0

theorem hz2 : (![0, 0] : Fin 2 → Nat) = fun _ => 0 := funext fun a => by fin_cases a <;> rfl

theorem read_x (f : (cc0_stg0_0 : Ref sig .tc).ty.Contents (Elt F)) : (xM : Memref sig .tc .vmem S1024x512 .f32).view.readAt (Elt F) r0x.toLoadRect f = f :=
  Memref.readAt_unit_zero (Elt F) cc0_stg0_0 hz2 _ f
theorem write_out (f w : (cc0_stg1_0 : Ref sig .tc).ty.Contents (Elt F)) :
    ((oM : Memref sig .tc .vmem S1024x1 .f32).access r0o : View sig .tc _ _ _).write (Elt F) f w Finset.univ = w :=
  Memref.write_access_unit_zero_univ (Elt F) cc0_stg1_0 hz2 _ f w

/-- A load or store through slot `j` of the whole buffer touches slot `j` only. -/
theorem load0_sub : (cM : Memref sig .tc .vmem S2x8x128 .f32).view.setOn rect0.toLoadRect.set ⊆ (srcM : Memref sig .tc .vmem S8x128 .f32).view.set := by
  rw [src_set]; intro i hi; obtain ⟨x, hx, rfl⟩ := Finset.mem_map.mp hi; exact hx
theorem load1_sub : (cM : Memref sig .tc .vmem S2x8x128 .f32).view.setOn rect1.toLoadRect.set ⊆ (dstM : Memref sig .tc .vmem S8x128 .f32).view.set := by
  rw [dst_set]; intro i hi; obtain ⟨x, hx, rfl⟩ := Finset.mem_map.mp hi; exact hx
theorem store0_sub : ((cM : Memref sig .tc .vmem S2x8x128 .f32).access rect0).setOn Finset.univ ⊆ (srcM : Memref sig .tc .vmem S8x128 .f32).view.set := by
  rw [src_set, View.setOn_univ, View.set_slice_whole]

theorem read_tile0 (c : Dev nD) : (cM : Memref sig .tc .vmem S2x8x128 .f32).view.readAt (Elt F) rect0.toLoadRect (tile m ρ c) = k0_pay2 (xstg m ρ c) :=
  read_slot0 (k0_pay2 (xstg m ρ c))
theorem read_tile1 (c : Dev nD) : (cM : Memref sig .tc .vmem S2x8x128 .f32).view.readAt (Elt F) rect1.toLoadRect (tile m ρ c) = k0_pay2 (xstg m ρ c) :=
  read_slot1 (k0_pay2 (xstg m ρ c))

section Body

variable (K : Dev nD × Fin 3 → ℕ)

/-- The copy, addressed to `n = pr c`: slot 0 of `c`, holding `c`'s tile, goes to slot 1 of the partner. It pays
    `c`'s send duty with slot 0 itself and the partner's receive duty with the partner's slot 1 rewritten — which
    agrees there with `c`'s tile. -/
theorem wp_send_mesh (c n : Dev nD) (hn : n = pr c) {hsc : (dstM : Memref sig (Dev.tc n : Thread nD τ).2.kind .vmem S8x128 .f32).view.ref.isScScratch = false}
    {hsrc : (srcM : Memref sig .tc .vmem S8x128 .f32).view.WordExact} {hdst : (dstM : Memref sig .tc .vmem S8x128 .f32).view.WordExact}
    {hsem : DmaTarget.Typed .vmem (.dma recvS.sem) (.remote (Dev.tc n : Thread nD τ) (dstM : Memref sig .tc .vmem S8x128 .f32) (.dma sendS.sem) hsc)}
    {α : Type} {Q : α → sProp 𝕄} {k : PUnit → Prog (TpuEff nD τ sig (Elt F) Λ₀ .tc) α}
    (fn : Buf (Elt F) ((dstM : Memref sig .tc .vmem S8x128 .f32).view.loc (pr c : Thread nD τ))) (W : Waits sig Unit) :
    iprop(cellInv ER (meshRd m ρ) (K (c, 1)) (sendCell c) ∗ cellInv ER (meshRd m ρ) (K (pr c, 2)) (recvCell (pr c))
        ∗ srcPts c (tile m ρ c) ∗ dstPts (pr c) fn
        ∗ owes (c : Thread nD τ) (tallyAt (recvCell (pr c)) () N) W
        ∗ dutyTok ER (sendCell c) 0 false ∗ reached ER (sendCell c) 0
        ∗ dutyTok ER (recvCell (pr c)) 0 false ∗ reached ER (recvCell (pr c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma srcM (.remote (Dev.tc n : Thread nD τ) dstM (.dma sendS.sem) hsc) (.dma recvS.sem) hsrc hdst hsem) k) Q) := by
  subst hn
  unfold srcPts dstPts
  exact Rounds.wp_send_pointsTo 𝒱₀ ER (meshRd m ρ) (c : Thread nD τ) none (κ₁ := K (c, 1)) (κ₂ := K (pr c, 2))
    (r₁ := 0) (r₂ := 0) (d₁ := false) (d₂ := false) (fd := fn)
    (by rw [duties_send]; exact Finset.mem_singleton_self _) (by rw [duties_recv]; exact Finset.mem_singleton_self _)
    () () N rfl (amount_send m ρ c false) (amount_recv m ρ (pr c) false) 0 (by rw [zero_add]) (W := W)
    (by rw [payload_send]; exact BI.Entails.refl _)
    (by rw [payload_recv]; unfold recvPay dstPts; rw [pr_pr]; exact Entails.of_eq (pointsTo_congr (landed_tile m ρ c fn)))

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What one device's body starts from: its ghost state at the names `K`, its two launch credits, the levels, the
    two-slot buffer, what it owes, and its two staging buffers (the block of `x` fetched; the result's, at anything). -/
def bodyPre (c : Dev nD) : sProp 𝕄 :=
  iprop((ghost m ρ K c ∗ cred (tallyAt (barCell c) () 1) ∗ cred (tallyAt (recvCell c) () N) ∗ levAts L lv ∗ ∃ f, scrPts c f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

/-- What it ends with: the buffer whole, its own two cells closed at zero, nothing owed, `x`'s block untouched and the
    result's staging buffer at the body's last payload of the two tiles. -/
def bodyPost (c : Dev nD) : sProp 𝕄 :=
  iprop(Φ₁ c ∗ (dats m ρ 0 c).owesAt () t₀.succ ∗ stg c cc0_stg0_0 (xstg m ρ c) ∗ stg c cc0_stg1_0 (outAt m ρ c))

set_option maxHeartbeats 1600000 in
/-- One device's body, effect by effect in program order. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton, k0_part2_eq_skeleton]; unfold k0_part1_skel k0_part2_skel
  simp only [semSignalWord, semWaitWord, Prog.lift, Prog.bind_op, Prog.bind_ret, Prog.pure_eq_ret, wp_deviceId]
  unfold bodyPre ghost invs
  iintro ⟨⟨⟨⟨⟨#HIbar, #HIsnd, #HIrcv, #HIbarP, #HIrcvP⟩, HatB, HatS, HatV, #HrBP, #HrVP, #HrS, #HrV, HtBP, HtVP, HtS⟩, HcB, HcV, #Hlev, ⟨%f0, Hscr⟩⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  simp only [dev1_eq c]
  unfold O₀ O₁
  -- the buffer cut into its two slots
  ihave Hsd := (scr_split c f0) $$ Hscr
  icases Hsd with ⟨Hsrc, Hdst⟩
  -- the SIGNAL to the partner's entry cell: slot 1 goes with it, and that the receive cell is at round 0
  iapply (Rounds.wp_signal 𝒱₀ ER (meshRd m ρ) (c : Thread nD τ) none (dst := (pr c : Thread nD τ)) (κ := K (pr c, 0))
      (d := false) (by rw [duties_bar]; exact Finset.mem_singleton_self _) ((amount_bar m ρ (pr c) false).trans (by decide)) () (tallyAt (recvCell (pr c)) () N) rfl)
    $$ [HO HtBP Hdst]
  · isplitr; · iexact HIbarP
    isplitl [HO]; · iexact HO
    isplitl [HtBP]; · iexact HtBP
    isplitl [Hdst]
    · rw [payload_bar]; unfold barPay; rw [pr_pr]
      isplitl [Hdst]; · iexists f0; iexact Hdst
      iexact HrV
    · iexact HrBP
  iintro HO
  -- the load of the block of `x`
  iapply (wp_load 𝒱₀ (c : Thread nD τ) none Set.univ (m := xM) (Finset.subset_univ _)) $$ Hx; iintro Hx
  rw [read_x]
  -- slot 0 read (the value is not used) and overwritten with the tile of row sums
  unfold srcPts
  iapply (wp_load 𝒱₀ (c : Thread nD τ) none Set.univ (m := cM) load0_sub) $$ Hsrc; iintro Hsrc
  iapply (wp_store 𝒱₀ (c : Thread nD τ) none Set.univ (m := cM) (r := rect0) (Mk := Finset.univ) store0_sub) $$ Hsrc; iintro Hsrc
  ihave Hsrc := (Entails.of_eq (pointsTo_congr (store_tile m ρ c f0))) $$ Hsrc
  -- the WAIT on the own entry cell, owing the partner's receive credit: the partner's slot 1 comes with it
  iapply (Rounds.wp_wait_rest_token 𝒱₀ ER (meshRd m ρ) (c : Thread nD τ) none (κ := K (c, 0))
      (wpE_semWait_eq 𝒱₀ (c : Thread nD τ) none Set.univ) (Set.mem_univ _) () (O := tallyAt (recvCell (pr c)) () N) (W := W) (R := 0) (m := 0) (T := ∅)
      (by rw [expect_bar]; decide)) $$ [HcB HO HatB]
  · isplitr; · iexact HIbar
    isplitl [HcB]; · iexact HcB
    isplitl [HO]; · iexact HO
    isplitr; · iapply (mayWait_bar c); iexact Hlev
    iexact HatB
  iintro ⟨HO, HatB, -, Hpay⟩
  ihave Hp := (Entails.of_eq (rest_bar m ρ c)) $$ Hpay
  unfold barPay
  icases Hp with ⟨⟨%fn, HdstP⟩, #HrVP'⟩
  -- the COPY to the partner
  iapply (wp_send_mesh m ρ K c _ (dev2_eq c) fn (insert (SemLoc.reg barS, ()) W)) $$ [Hsrc HdstP HO HtS HtVP]
  · isplitr; · iexact HIsnd
    isplitr; · iexact HIrcvP
    isplitl [Hsrc]; · unfold srcPts; iexact Hsrc
    isplitl [HdstP]; · iexact HdstP
    isplitl [HO]; · iexact HO
    isplitl [HtS]; · iexact HtS
    isplitr; · iexact HrS
    isplitl [HtVP]; · iexact HtVP
    iexact HrVP
  iintro ⟨HcS, HO⟩
  -- the wait on the own SEND cell: slot 0 back, still holding the own tile
  iapply (Rounds.wp_wait_rest_token 𝒱₀ ER (meshRd m ρ) (c : Thread nD τ) none (κ := K (c, 1))
      (wpE_waitDma2_eq 𝒱₀ (c : Thread nD τ) none Set.univ) (Set.mem_univ _) () (O := 0) (W := insert (SemLoc.reg barS, ()) W) (R := 0) (m := 0) (T := ∅)
      (by rw [Nat.zero_add, expect_send])) $$ [HcS HO HatS]
  · isplitr; · iexact HIsnd
    isplitl [HcS]; · iexact HcS
    isplitl [HO]; · iexact HO
    isplitr; · rw [MayWait_zero]; iempintro
    iexact HatS
  iintro ⟨HO, HatS, -, Hpay⟩
  ihave Hsrc := (Entails.of_eq (rest_send m ρ c)) $$ Hpay
  -- the wait on the own RECEIVE cell: slot 1 back, holding the partner's tile
  iapply (Rounds.wp_wait_rest_token 𝒱₀ ER (meshRd m ρ) (c : Thread nD τ) none (κ := K (c, 2))
      (wpE_waitDma2_eq 𝒱₀ (c : Thread nD τ) none Set.univ) (Set.mem_univ _) () (O := 0)
      (W := insert (SemLoc.dma sendS.sem, ()) (insert (SemLoc.reg barS, ()) W)) (R := 0) (m := 0) (T := ∅)
      (by rw [Nat.zero_add, expect_recv])) $$ [HcV HO HatV]
  · isplitr; · iexact HIrcv
    isplitl [HcV]; · iexact HcV
    isplitl [HO]; · iexact HO
    isplitr; · rw [MayWait_zero]; iempintro
    iexact HatV
  iintro ⟨HO, HatV, -, Hpay⟩
  ihave Hdst := (Entails.of_eq (rest_recv m ρ c)) $$ Hpay
  unfold sendPay recvPay srcPts dstPts
  -- the two own cells close: their counters at zero are the device's again
  imod (Rounds.cell_close ER (meshRd m ρ) (Set.mem_univ (K (c, 1))) (fun h => h) (R := 0 + 1) (duties_later m ρ (sendCell c))) $$ [HatS] with HzS
  · isplitr; · iexact HIsnd
    iexact HatS
  imod (Rounds.cell_close ER (meshRd m ρ) (Set.mem_univ (K (c, 2))) (fun h => h) (R := 0 + 1) (duties_later m ρ (recvCell c))) $$ [HatV] with HzV
  · isplitr; · iexact HIrcv
    iexact HatV
  -- the two tiles read back, the result computed and stored
  iapply (wp_load 𝒱₀ (c : Thread nD τ) none Set.univ (m := cM) load0_sub) $$ Hsrc; iintro Hsrc
  rw [read_tile0]
  iapply (wp_load 𝒱₀ (c : Thread nD τ) none Set.univ (m := cM) load1_sub) $$ Hdst; iintro Hdst
  rw [read_tile1]
  iapply (wp_load 𝒱₀ (c : Thread nD τ) none Set.univ (m := oM) (Finset.subset_univ _)) $$ Hout; iintro Hout
  iapply (wp_store 𝒱₀ (c : Thread nD τ) none Set.univ (m := oM) (r := r0o) (Mk := Finset.univ) (Finset.subset_univ _)) $$ Hout; iintro Hout
  rw [write_out, wp_ret]; imodintro
  iapply Hk
  unfold bodyPost Φ₁ Dat.owesAt Pipeline.owesWithin
  rw [show (dats m ρ 0 c).owed t₀.succ = 0 from rfl]
  isplitl [Hsrc Hdst HzS HzV]
  · isplitl [Hsrc Hdst]
    · iapply (scr_join c (tile m ρ c) (tile m ρ (pr c)))
      unfold srcPts dstPts
      isplitl [Hsrc]; · iexact Hsrc
      iexact Hdst
    isplitl [HzS]; · iexact HzS
    iexact HzV
  isplitl [HO]
  · iexists (insert (SemLoc.dma recvS.sem, ()) (insert (SemLoc.dma sendS.sem, ()) (insert (SemLoc.reg barS, ()) W)))
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hrest⟩, Hscr⟩, Ho, Hx, Hout⟩
  iapply (sound_body m ρ K c fun _ => bodyPost m ρ c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx] <;> iassumption
  · iintro H; iexact H

end Body

end Cert.KernelRun

end
-- ==== Proof.KernelLaunch.lean ====
import proofs.«900961_g7700000000000962_dist_mean_ax1_xy_m1024_n512_v7x_xy2x2_bf16_1_alg».proof.Proof.KernelProtocol

/-!
# The launch: from each device's body to the run of the whole mesh

The exchange's ghost state is allocated for all four devices under one update (the entry cells are shared between
partners): every cell's round state and invariant, each device's positions, and the duty tokens — dealt to the
device that PAYS the duty (an entry or receive cell's token to the owner's partner, a send cell's to its owner).
The units other devices owe a device's cells come to it as credit (one unit on its entry cell, the copy's credit
on its receive cell). With these the library's launch theorem turns "each device's body is proved" into the
termination of every weakly fair execution of the mesh, every array ending at the proof data's final contents.
-/

noncomputable section

namespace Cert.KernelRun

open Cert.Kernel Cert.Kernel.Gen
open Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def meshCells : Finset (GSem nD τ sig) := Finset.univ.map ⟨kcell, kcell_injective⟩

/-- Every cell has one duty token: (cell, round 0, duty `false`). -/
abbrev tokOf (ck : Dev nD × Fin 3) : GSem nD τ sig × ℕ × Bool := (kcell ck, 0, false)
theorem tokOf_injective : Function.Injective (tokOf : Dev nD × Fin 3 → GSem nD τ sig × ℕ × Bool) :=
  fun a b h => kcell_injective (congrArg Prod.fst h)
def meshToks : Finset (GSem nD τ sig × ℕ × Bool) := Finset.univ.map ⟨tokOf, tokOf_injective⟩

def u₀ : UU :=
  (initOf (Pipeline.cells cfgs cellOf_inj) (Pipeline.launchToks cfgs cellOf_inj), initOf meshCells meshToks)

/-- The duty tokens of device `c`'s own three cells. -/
def toks (c : Dev nD) : sProp 𝕄 := bigSep Finset.univ fun k : Fin 3 => dutyTok ER (kcell (c, k)) 0 false

/-- What the launch element deals device `c`. -/
def G (c : Dev nD) : sProp 𝕄 :=
  iprop((bigSep Finset.univ fun k : Fin 3 => roundState ER (meshRd m ρ) (kcell (c, k)) 0)
    ∗ (bigSep Finset.univ fun k : Fin 3 => iprop(atPos ER (kcell (c, k)) 0 ∅ 0 ∗ reached ER (kcell (c, k)) 0)) ∗ toks c)

/-- What the global step makes of it. -/
def G' (c : Dev nD) : sProp 𝕄 := iprop(∃ K, ghost m ρ K c)

theorem bigSep_fin3 (Φ : Fin 3 → sProp 𝕄) : bigSep Finset.univ Φ = iprop(Φ 0 ∗ Φ 1 ∗ Φ 2) := bigSep_univ_eq_bigSepL [0, 1, 2] (by decide) (by decide) Φ

theorem fund_mesh : BI.own (ER (initOf meshCells meshToks)) ⊢ (|==> bigSep Finset.univ (G m ρ) : sProp 𝕄) := by
  have hX (Φ : GSem nD τ sig → sProp 𝕄) : bigSep meshCells Φ = bigSep Finset.univ fun c : Dev nD => bigSep Finset.univ fun k : Fin 3 => Φ (kcell (c, k)) := by
    unfold meshCells; rw [bigSep_map, bigSep_univ_prod]; rfl
  have hT : bigSep meshToks (fun x => (dutyTok ER x.1 x.2.1 x.2.2 : sProp 𝕄)) = bigSep Finset.univ fun c : Dev nD => toks c := by
    unfold meshToks; rw [bigSep_map, bigSep_univ_prod]; rfl
  iintro HX
  imod (Rounds.fund ER (meshRd m ρ) meshCells meshToks) $$ HX with ⟨Hst, Hr, Hat, Htok⟩
  imodintro
  ihave Hst' := (Entails.of_eq (hX fun g => roundState ER (meshRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The send and receive semaphores are the kernel's own two; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
/-- the entry semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (meshRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (meshRd m ρ) (kcell (c, k)) 0)
      ⊢ (|={Set.univ}=> bigSep Finset.univ fun k => iprop(∃ κ : ℕ, cellInv ER (meshRd m ρ) κ (kcell (c, k))) : sProp 𝕄) from by
        rw [← bigSep_sep']
        exact (bigSep_mono fun k _ => (Rounds.body_intro ER (meshRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 3 → ℕ) : sProp 𝕄 :=
  iprop((bigSep Finset.univ fun ck : Dev nD × Fin 3 => cellInv ER (meshRd m ρ) (K ck) (kcell ck))
    ∗ bigSep Finset.univ fun ck : Dev nD × Fin 3 => reached ER (kcell ck) 0)

instance records_persistent (K : Dev nD × Fin 3 → ℕ) : BI.Persistent (records m ρ K) := by unfold records; infer_instance

theorem inv_at (K : Dev nD × Fin 3 → ℕ) (ck : Dev nD × Fin 3) :
    (bigSep Finset.univ fun ck : Dev nD × Fin 3 => (cellInv ER (meshRd m ρ) (K ck) (kcell ck) : sProp 𝕄)) ⊢ cellInv ER (meshRd m ρ) (K ck) (kcell ck) :=
  bigSep_elim (Finset.mem_univ ck)
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What stays with device `c`: its positions, and the tokens of the duties IT pays. -/
def payToks (c : Dev nD) : sProp 𝕄 :=
  iprop(dutyTok ER (barCell (pr c)) 0 false ∗ dutyTok ER (recvCell (pr c)) 0 false ∗ dutyTok ER (sendCell c) 0 false)
def linear (c : Dev nD) : sProp 𝕄 :=
  iprop((atPos ER (barCell c) 0 ∅ 0 ∗ atPos ER (sendCell c) 0 ∅ 0 ∗ atPos ER (recvCell c) 0 ∅ 0) ∗ payToks c)

theorem ghost_intro (K : Dev nD × Fin 3 → ℕ) (c : Dev nD) : iprop(records m ρ K ∗ linear c) ⊢ G' m ρ c := by
  unfold records linear payToks G' ghost invs
  iintro ⟨⟨#HI, #HR⟩, ⟨HaB, HaS, HaV⟩, HtBP, HtVP, HtS⟩
  iexists K
  isplitr
  · isplitr; · iapply (inv_at m ρ K (c, 0)); iexact HI
    isplitr; · iapply (inv_at m ρ K (c, 1)); iexact HI
    isplitr; · iapply (inv_at m ρ K (c, 2)); iexact HI
    isplitr; · iapply (inv_at m ρ K (pr c, 0)); iexact HI
    iapply (inv_at m ρ K (pr c, 2)); iexact HI
  isplitl [HaB]; · iexact HaB
  isplitl [HaS]; · iexact HaS
  isplitl [HaV]; · iexact HaV
  isplitr; · iapply (reached_at (F := F) (pr c, 0)); iexact HR
  isplitr; · iapply (reached_at (F := F) (pr c, 2)); iexact HR
  isplitr; · iapply (reached_at (F := F) (c, 1)); iexact HR
  isplitr; · iapply (reached_at (F := F) (c, 2)); iexact HR
  isplitl [HtBP]; · iexact HtBP
  isplitl [HtVP]; · iexact HtVP
  iexact HtS

/-- The tokens dealt to their payers: an entry cell's and a receive cell's token go to the partner, a send cell's
    stays. -/
theorem toks_around : (bigSep Finset.univ fun c : Dev nD => (toks c : sProp 𝕄)) ⊢ bigSep Finset.univ fun c : Dev nD => payToks c := by
  unfold toks payToks
  simp only [bigSep_fin3]
  rw [bigSep_sep', bigSep_sep', bigSep_sep', bigSep_sep',
    bigSep_univ_equiv prEquiv (fun c : Dev nD => (dutyTok ER (kcell (c, 0)) 0 false : sProp 𝕄)),
    bigSep_univ_equiv prEquiv (fun c : Dev nD => (dutyTok ER (kcell (c, 2)) 0 false : sProp 𝕄))]
  iintro ⟨H1, H2, H3⟩
  isplitl [H1]; · iexact H1
  isplitl [H3]; · iexact H3
  iexact H2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (meshRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 3 => iprop(∃ κ : ℕ, cellInv ER (meshRd m ρ) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (meshRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

theorem bar_eq_iff {a b : Dev nD} : Iff (barCell a = barCell b) (a = b) :=
  ⟨fun h => Fin.ext (congrArg (fun g : GSem nD τ sig => g.1.1.val) h), fun h => h ▸ rfl⟩
theorem recv_eq_iff {a b : Dev nD} : Iff (recvCell a = recvCell b) (a = b) :=
  ⟨fun h => Fin.ext (congrArg (fun g : GSem nD τ sig => g.1.1.val) h), fun h => h ▸ rfl⟩

theorem eq_pr_iff (d c : Dev nD) : Iff (c = pr d) (d = pr c) :=
  ⟨fun h => by rw [h, pr_pr], fun h => by rw [h, pr_pr]⟩

/-- What device `d` owes device `c`'s entry cell: a unit if `d` is `c`'s partner. -/
theorem owed_bar (d c : Dev nD) : O₀ d (barCell c) () = if d = pr c then 1 else 0 := by
  unfold O₀ O₁
  rw [Pi.add_apply, Finsupp.add_apply, tallyAt_ne_cell (fun h => recv_ne_bar (congrArg Prod.snd h).symm),
    tallyAt_apply, Finsupp.zero_apply, Nat.zero_add]
  by_cases h : d = pr c
  · rw [if_pos h, if_pos ⟨bar_eq_iff.mpr ((eq_pr_iff d c).mpr h), rfl⟩]
  · rw [if_neg h, if_neg (fun ⟨h1, _⟩ => h ((eq_pr_iff d c).mp (bar_eq_iff.mp h1)))]

theorem owed_recv (d c : Dev nD) : O₀ d (recvCell c) () = if d = pr c then N else 0 := by
  unfold O₀ O₁
  rw [Pi.add_apply, Finsupp.add_apply, tallyAt_apply,
    tallyAt_ne_cell (fun h => recv_ne_bar (congrArg Prod.snd h)), Finsupp.zero_apply, Nat.add_zero]
  by_cases h : d = pr c
  · rw [if_pos h, if_pos ⟨recv_eq_iff.mpr ((eq_pr_iff d c).mpr h), rfl⟩]
  · rw [if_neg h, if_neg (fun ⟨h1, _⟩ => h ((eq_pr_iff d c).mp (recv_eq_iff.mp h1)))]

theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (pr c) fun _ => 1, if_pos (Finset.mem_univ _)]

theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c, Finset.sum_ite_eq' Finset.univ (pr c) fun _ => N,
    if_pos (Finset.mem_univ _)]

theorem creds (c : Dev nD) :
    (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; rw [scrPts_eq]; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁
  iintro ⟨⟨%f, Hr⟩, HzS, HzV⟩
  isplitr; · iempintro
  isplitl [HzS HzV]
  · isplitl [HzS] <;> iassumption
  iexists f; rw [← scrPts_eq]; iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of four devices, for any float values, from any memory with zero counters, given each
    device's body: every weakly fair execution of @main — partners shaking hands on the entry semaphore, then swapping
    tiles — terminates, and every final state has each device's arrays at the proof data's final contents. -/
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_mesh m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The `x` array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.KernelRun

end
-- ==== Proof.KernelFinal.lean ====
import proofs.«900961_g7700000000000962_dist_mean_ax1_xy_m1024_n512_v7x_xy2x2_bf16_1_alg».proof.Proof.KernelBody
import proofs.«900961_g7700000000000962_dist_mean_ax1_xy_m1024_n512_v7x_xy2x2_bf16_1_alg».proof.Proof.KernelLaunch

/-!
# The run with values

The launch theorem leaves every array at the proof data's final contents. Read off: the argument array is never
written, so it ends as it began; the result array is written once, whole, by the one grid point, so it ends at what
the body stored — its last payload applied to the device's own tile and its partner's.
-/

noncomputable section

namespace Cert.KernelRun

open Cert.Kernel Cert.Kernel.Gen
open Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the arrays hold after the run -/

/-- The block of `x` a device's staging buffer is fetched with is its whole argument array. -/
theorem xstg_eq (c : Dev nD) : xstg m ρ c = m ((c : Thread nD τ).loc main_arg0) := by
  have hz' : (fun a => win0_0.index (0 : Fin 1) a * main_arg0.ty.shape.size a) = fun _ => 0 := funext fun a => by fin_cases a <;> decide
  exact Memref.read_access_unit_zero (Elt F) main_arg0 hz' (fun a => by rw [congrFun hz' a]; simp) _

/-- The result array after the run: the one point writes its whole block, which is the whole array. -/
theorem finalA_out (c : Dev nD) : finalA m ρ c (1 : Fin 2) = outAt m ρ c := by
  unfold finalA
  refine (dats (F := F) m ρ 0 c).arrAt_eq_of_cover (1 : Fin 2) (outAt m ρ c) (fun t _ => ?_) (fun i => ⟨t₀, flush0_1 _, ?_⟩)
  · rw [fin_N t]
    show (cfg0.win (1 : Fin 2)).cut (grid0.coords t₀) ((dats m ρ 0 c).after 1 t₀) = _
    have hz' : (fun a => win0_1.index t₀ a * main_v1.ty.shape.size a) = fun _ => 0 := funext fun a => by fin_cases a <;> decide
    exact (Memref.read_access_unit_zero (Elt F) main_v1 hz' (fun a => by rw [congrFun hz' a]; simp) (outAt m ρ c)).symm
  · show i ∈ ((cfg0.win (1 : Fin 2)).blk t₀).view.set
    rw [show ((cfg0.win (1 : Fin 2)).blk t₀).view.set = Finset.univ from by decide]
    exact Finset.mem_univ _

/-- THE RUN, with values: at the compiled mesh, for any float values, from any memory with zero counters, every weakly
    fair execution of @main terminates, each device's result array ends at the body's last payload of its own tile and
    its partner's, and its argument array ends as it began. -/
theorem run : θ_run defs (onTc (τ := τ) (main (F := F))) ⟨m, fun _ => 0, ρ⟩ (fun r => ∀ c : Dev nD,
    r.2.mem ((c.tc : Thread nD τ).loc main_v1) = outAt m ρ c
    ∧ r.2.mem ((c.tc : Thread nD τ).loc main_arg0) = m ((c.tc : Thread nD τ).loc main_arg0)) :=
  (θ_run defs _ _).mono (fun _ h c => ⟨(h c (1 : Fin 2)).trans (finalA_out m ρ c), (h c (0 : Fin 2)).trans (finalA_x m ρ c)⟩)
    (run_main m ρ (body_obligation m ρ))

/-- info: 'Cert.KernelRun.run' depends on axioms: [propext, Classical.choice, Quot.sound] -/
#guard_msgs in #print axioms run

end Cert.KernelRun

end
-- ==== Proof.KernelIdealProtocol.lean ====
import proofs.«900961_g7700000000000962_dist_mean_ax1_xy_m1024_n512_v7x_xy2x2_bf16_1_alg».proof.Defs
import proofs.«900961_g7700000000000962_dist_mean_ax1_xy_m1024_n512_v7x_xy2x2_bf16_1_alg».proof.Proof.Gen.KernelIdeal
import proofs.«900961_g7700000000000962_dist_mean_ax1_xy_m1024_n512_v7x_xy2x2_bf16_1_alg».proof.Proof.Gen.KernelIdeal.Skeleton
import proofs.«900961_g7700000000000962_dist_mean_ax1_xy_m1024_n512_v7x_xy2x2_bf16_1_alg».proof.Proof.Gen.KernelIdeal.Launch
import proofs.«900961_g7700000000000962_dist_mean_ax1_xy_m1024_n512_v7x_xy2x2_bf16_1_alg».proof.Proof.Gen.KernelIdeal.Points
import proofs.«900961_g7700000000000962_dist_mean_ax1_xy_m1024_n512_v7x_xy2x2_bf16_1_alg».proof.Proof.Peer
import Idealize.ShloMosaic.Lib.Pipeline.Launch
import Idealize.ShloMosaic.Lib.Pipeline.Kit
import Idealize.ShloMosaic.Lib.Pipeline.Value
import Idealize.ShloMosaic.Lib.Tactic

/-!
# The exchange between partner devices

On the 2 × 2 mesh every device `c` has one partner `peer c`: the device in the same mesh row holding the
other half of the columns. Each device reduces its block of `x` to an 8 × 128 tile of row sums, kept in slot 0 of
a two-slot buffer, and the two partners swap tiles: `c` copies its slot 0 into slot 1 of `peer c`.

Three semaphores per device carry the exchange, each with ONE duty in ONE round:
* the entry cell of `c`, signalled one unit by `peer c`; with the unit `peer c` hands `c` slot 1 of its own
  buffer (the landing area) and the fact that its receive cell is at round 0 — exactly what `c`'s copy needs;
* the send cell of `c`, paid by `c`'s own copy once slot 0 is read: slot 0 comes back, still holding `c`'s tile;
* the receive cell of `c`, paid by `peer c`'s copy once slot 1 is written: slot 1 comes back holding `peer c`'s tile.

A device waits on its entry cell (level 1) while it still owes its partner's receive cell (level 2) the copy's
credit; every other wait happens with nothing owed. Levels increase along every "waits while owing" edge, so no
cycle of waiting devices exists.
-/

noncomputable section

namespace Cert.KernelIdealRun

open Cert.KernelIdeal Cert.KernelIdeal.Gen
open Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy beside the exchange's (duties named by `Bool`, only `false` used) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## The partner -/

/-- The partner of a device, as a device of this mesh. -/
abbrev pr (c : Dev nD) : Dev nD := peer c

theorem pr_pr (c : Dev nD) : pr (pr c) = c := peer_peer c
theorem pr_ne (c : Dev nD) : pr c ≠ c := peer_ne c

/-- Both device-id chains of the body (the signal's and the copy's) compute the partner. -/
theorem dev1_eq (c : Dev nD) : (⟨k0_dev1 c, k0_dev1_lt c⟩ : Dev nD) = pr c := Fin.ext (k0_dev1_eq c)
theorem dev2_eq (c : Dev nD) : (⟨k0_dev2 c, k0_dev2_lt c⟩ : Dev nD) = pr c := Fin.ext (k0_dev2_eq c)

def prEquiv : Dev nD ≃ Dev nD := ⟨pr, pr, pr_pr, pr_pr⟩

/-! ## The buffers, the two slots, the cells -/

abbrev xM : Memref sig .tc .vmem S1024x512 .f32 := Memref.whole cc0_stg0_0
abbrev oM : Memref sig .tc .vmem S1024x1 .f32 := Memref.whole cc0_stg1_0
abbrev cM : Memref sig .tc .vmem S2x8x128 .f32 := Memref.whole cc0_scratch0

/-- Slot `j` of the two-slot buffer, as the rectangle `[j, j+1) × [0, 8) × [0, 128)`. -/
abbrev rect0 : Rect S2x8x128 := Rect.unit (s := S2x8x128) ![0, 0, 0] S1x8x128.size inb_S2x8x128_S1x8x128_0_0_0
abbrev rect1 : Rect S2x8x128 := Rect.unit (s := S2x8x128) ![1, 0, 0] S1x8x128.size inb_S2x8x128_S1x8x128_1_0_0

/-- The copy's two ends: slot 0 (source) and slot 1 (destination) as 8 × 128 memrefs. -/
abbrev srcM : Memref sig .tc .vmem S8x128 .f32 := (cM.slice rect0 (fun _ => rfl)).squeeze S8x128 squeezes_S1x8x128_S8x128
abbrev dstM : Memref sig .tc .vmem S8x128 .f32 := (cM.slice rect1 (fun _ => rfl)).squeeze S8x128 squeezes_S1x8x128_S8x128

/-- The entry semaphore (the runtime's, unscoped), the send and receive DMA semaphores (scoped scratch). -/
abbrev barS : Sem sig := (SemArray.scalar (sig.barrier 0 rfl) : Sems sig S_).sem
abbrev sendS : DmaSems sig S_ := cc0_scratch1
abbrev recvS : DmaSems sig S_ := cc0_scratch2

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The kernel's own (scoped) semaphores as the launch indexes them: send, receive; -/
abbrev osem : Fin 2 → SemLoc sig := fun | 0 => .dma sendS.sem | 1 => .dma recvS.sem
/-- all three of the exchange's: entry, send, receive. -/
abbrev csem : Fin 3 → SemLoc sig := fun | 0 => .reg barS | 1 => .dma sendS.sem | 2 => .dma recvS.sem
abbrev kcell (ck : Dev nD × Fin 3) : GSem nD τ sig := ((ck.1 : Thread nD τ), csem ck.2)

/-- The copy's credit: what a transfer of one slot adds to each of its two semaphores. -/
abbrev N : ℕ := (dstM : Memref sig .tc .vmem S8x128 .f32).view.dmaCredit
theorem N_pos : 0 < N := View.dmaCredit_pos _ (by decide)

/-! ## Contents -/

/-- Device `c`'s block of `x`, as its staging buffer holds it. -/
def xstg (c : Dev nD) : (cc0_stg0_0 : Ref sig .tc).ty.Contents (Elt F) :=
  (win0_0.blk (0 : Fin 1)).view.read (Elt F) ((s₀ m ρ).mem ((c : Thread nD τ).loc main_arg0))

/-- An index of the two-slot buffer with its slot coordinate forgotten. -/
def lower (i : S2x8x128.Idx) : S1x8x128.Idx := fun a => match a with
  | ⟨0, _⟩ => ⟨0, Nat.zero_lt_one⟩
  | ⟨1, _⟩ => ⟨(i 1).val, (i 1).isLt⟩
  | ⟨2, _⟩ => ⟨(i 2).val, (i 2).isLt⟩

/-- Device `c`'s tile of row sums laid over BOTH slots of the buffer (the same 8 × 128 values in each): whichever
    slot a tile sits in, the buffer agrees with this function there. -/
def tile (c : Dev nD) : (cc0_scratch0 : Ref sig .tc).ty.Contents (Elt F) := fun i => k0_pay2 (xstg m ρ c) (lower i)

/-- The selector and the diagonal mask: pure constants of the body. -/
def selV : FVec F S1024x8 .f32 := k0_pay3 (F := F) (iota .tc S1024x8 32 [0] iota_S1024x8_d0_w32) 128#32
def diagV : IVec S1024x128 1 := k0_pay4

/-- The kernel's result on device `c`: the body's last payload of its own tile and its partner's. -/
def outAt (c : Dev nD) : (cc0_stg1_0 : Ref sig .tc).ty.Contents (Elt F) :=
  k0_pay1 (selV (F := F)) diagV (k0_pay2 (xstg m ρ c)) (k0_pay2 (xstg m ρ (pr c)))

/-- Slot 0 and slot 1 of device `c`'s buffer at contents `f` (only `f`'s values on the slot matter). -/
def srcPts (c : Dev nD) (f : Buf (Elt F) ((srcM : Memref sig .tc .vmem S8x128 .f32).view.loc (c : Thread nD τ))) : sProp 𝕄 :=
  (srcM : Memref sig .tc .vmem S8x128 .f32).view.loc (c : Thread nD τ) ↦[(srcM : Memref sig .tc .vmem S8x128 .f32).view.set]{fullShare} f
def dstPts (c : Dev nD) (f : Buf (Elt F) ((dstM : Memref sig .tc .vmem S8x128 .f32).view.loc (c : Thread nD τ))) : sProp 𝕄 :=
  (dstM : Memref sig .tc .vmem S8x128 .f32).view.loc (c : Thread nD τ) ↦[(dstM : Memref sig .tc .vmem S8x128 .f32).view.set]{fullShare} f
def xPts (c : Dev nD) : sProp 𝕄 :=
  (xM : Memref sig .tc .vmem S1024x512 .f32).view.loc (c : Thread nD τ) ↦[(xM : Memref sig .tc .vmem S1024x512 .f32).view.set]{fullShare} xstg m ρ c

instance srcPts_storable (c : Dev nD) (f) : BI.Storable (upEmb : UEmb _ 𝕄) (srcPts (F := F) c f) := by unfold srcPts; infer_instance
instance dstPts_storable (c : Dev nD) (f) : BI.Storable (upEmb : UEmb _ 𝕄) (dstPts (F := F) c f) := by unfold dstPts; infer_instance

/-! ## The schedule -/

/-- With its unit on `o`'s entry cell, `pr o` hands `o` its own slot 1 and that its receive cell is at round 0. -/
def barPay (o : Dev nD) : sProp 𝕄 := iprop((∃ f, dstPts (pr o) f) ∗ reached ER (recvCell (pr o)) 0)
/-- The landing on `o`: slot 1 holding its partner's tile. -/
def recvPay (o : Dev nD) : sProp 𝕄 := dstPts o (tile m ρ (pr o))
/-- The departure from `o`: slot 0 back, holding its own tile. -/
def sendPay (o : Dev nD) : sProp 𝕄 := srcPts o (tile m ρ o)

abbrev IsBar (g : GSem nD τ sig) : Prop := g.1.2 = .tc ∧ g.2 = .reg barS
abbrev IsXfer (g : GSem nD τ sig) : Prop := g.1.2 = .tc ∧ (g.2 = .dma sendS.sem ∨ g.2 = .dma recvS.sem)

/-- One round, round 0, one duty (`false`) per cell: an entry cell's of one unit, a send or receive cell's of the
    copy's credit. -/
def meshRd : Rounds.Schedule (GSem nD τ sig) Bool 𝕄 where
  duties g r := if r = 0 ∧ (IsBar g ∨ IsXfer g) then {false} else ∅
  unitless _ := False
  amount g _ _ := if g.2 = .reg barS then 1 else N
  payload g _ _ :=
    if g.2 = .reg barS then barPay g.1.1
    else if g.2 = .dma recvS.sem then recvPay m ρ g.1.1
    else if g.2 = .dma sendS.sem then sendPay m ρ g.1.1
    else iprop(emp)
  amount_pos g _ _ _ := by
    by_cases h : g.2 = .reg barS
    · rw [if_pos h]; exact Nat.one_pos
    · rw [if_neg h]; exact N_pos

instance meshRd_payload_storable (g : GSem nD τ sig) (r : ℕ) (d : Bool) :
    BI.Storable (upEmb : UEmb _ 𝕄) ((meshRd (F := F) m ρ).payload g r d) := by
  show BI.Storable upEmb (if g.2 = .reg barS then barPay g.1.1 else if g.2 = .dma recvS.sem then recvPay m ρ g.1.1
    else if g.2 = .dma sendS.sem then sendPay m ρ g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

theorem duties_bar : (meshRd (F := F) m ρ).duties (barCell c) 0 = {false} := by
  dsimp only [meshRd]; exact if_pos ⟨rfl, .inl ⟨rfl, rfl⟩⟩
theorem duties_send : (meshRd (F := F) m ρ).duties (sendCell c) 0 = {false} := by
  dsimp only [meshRd]; exact if_pos ⟨rfl, .inr ⟨rfl, .inl rfl⟩⟩
theorem duties_recv : (meshRd (F := F) m ρ).duties (recvCell c) 0 = {false} := by
  dsimp only [meshRd]; exact if_pos ⟨rfl, .inr ⟨rfl, .inr rfl⟩⟩
theorem duties_later (g : GSem nD τ sig) : ∀ r, 1 ≤ r → (meshRd (F := F) m ρ).duties g r = ∅ :=
  fun r hr => by dsimp only [meshRd]; rw [if_neg fun h => by omega]

theorem amount_bar (d : Bool) : (meshRd (F := F) m ρ).amount (barCell c) 0 d = 1 := by dsimp only [meshRd]; exact if_pos rfl
theorem amount_send (d : Bool) : (meshRd (F := F) m ρ).amount (sendCell c) 0 d = N := by dsimp only [meshRd]; exact if_neg send_ne_bar
theorem amount_recv (d : Bool) : (meshRd (F := F) m ρ).amount (recvCell c) 0 d = N := by dsimp only [meshRd]; exact if_neg recv_ne_bar

theorem expect_bar : (meshRd (F := F) m ρ).expect (barCell c) 0 = 1 := by
  unfold Schedule.expect Schedule.amountOf; rw [duties_bar, Finset.sum_singleton, amount_bar]
theorem expect_send : (meshRd (F := F) m ρ).expect (sendCell c) 0 = N := by
  unfold Schedule.expect Schedule.amountOf; rw [duties_send, Finset.sum_singleton, amount_send]
theorem expect_recv : (meshRd (F := F) m ρ).expect (recvCell c) 0 = N := by
  unfold Schedule.expect Schedule.amountOf; rw [duties_recv, Finset.sum_singleton, amount_recv]

theorem payload_bar (d : Bool) : (meshRd (F := F) m ρ).payload (barCell c) 0 d = barPay c := by
  dsimp only [meshRd]; rw [if_pos rfl]
theorem payload_send (d : Bool) : (meshRd (F := F) m ρ).payload (sendCell c) 0 d = sendPay m ρ c := by
  dsimp only [meshRd]; rw [if_neg send_ne_bar, if_neg send_ne_recv, if_pos rfl]
theorem payload_recv (d : Bool) : (meshRd (F := F) m ρ).payload (recvCell c) 0 d = recvPay m ρ c := by
  dsimp only [meshRd]; rw [if_neg recv_ne_bar, if_pos rfl]

/-- The rest of each cell's one-duty round, nothing taken yet: its payload. -/
theorem rest_bar : bigSep ((meshRd (F := F) m ρ).duties (barCell c) 0 \ ∅) (fun d => (meshRd (F := F) m ρ).payload (barCell c) 0 d) = barPay c := by
  rw [Finset.sdiff_empty, duties_bar, bigSep_singleton, payload_bar]
theorem rest_send : bigSep ((meshRd (F := F) m ρ).duties (sendCell c) 0 \ ∅) (fun d => (meshRd (F := F) m ρ).payload (sendCell c) 0 d) = sendPay m ρ c := by
  rw [Finset.sdiff_empty, duties_send, bigSep_singleton, payload_send]
theorem rest_recv : bigSep ((meshRd (F := F) m ρ).duties (recvCell c) 0 \ ∅) (fun d => (meshRd (F := F) m ρ).payload (recvCell c) 0 d) = recvPay m ρ c := by
  rw [Finset.sdiff_empty, duties_recv, bigSep_singleton, payload_recv]

end Sched

/-! ## What each device owes at launch; the levels -/

/-- Device `c` owes its partner's receive cell the copy's credit and its partner's entry cell one unit — summed so
    that the signal, which comes first, peels the last summand. -/
def O₁ (c : Dev nD) : CellTallies nD τ sig Unit := tallyAt (recvCell (pr c)) () N
def O₀ (c : Dev nD) : CellTallies nD τ sig Unit := O₁ c + tallyAt (barCell (pr c)) () 1

def L (g : GSem nD τ sig) : Finset Unit := if g.1.2 = .tc then {()} else ∅
/-- entry cells at 1, receive cells at 2, everything else (staging, send) at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) :
    g = recvCell (pr c) ∨ g = barCell (pr c) := by
  unfold O₀ O₁ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

/-- A wait on a staging cell (level 0) is below everything a device may still owe (levels 1 and 2). -/
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

/-- At its entry wait (level 1) a device owes its partner's receive credit only (level 2). -/
theorem mayWait_bar (c : Dev nD) :
    (levAts L lv : sProp 𝕄) ⊢ MayWait (c : Thread nD τ) (.reg barS) () (tallyAt (recvCell (pr c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (pr c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (pr c) ∧ u = ()
      · rw [h.1]; dsimp only [lv]; rw [if_neg recv_ne_bar, if_pos rfl]; decide
      · rw [if_neg h] at hg; exact absurd hg (Nat.lt_irrefl 0))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The whole two-slot buffer of device `c` at contents `f`. -/
def scrPts (c : Dev nD) (f : Buf (Elt F) ((cM : Memref sig .tc .vmem S2x8x128 .f32).view.loc (c : Thread nD τ))) : sProp 𝕄 :=
  (cM : Memref sig .tc .vmem S2x8x128 .f32).view.loc (c : Thread nD τ) ↦[(cM : Memref sig .tc .vmem S2x8x128 .f32).view.set]{fullShare} f

theorem scr_set : (cM : Memref sig .tc .vmem S2x8x128 .f32).view.set = Finset.univ := View.set_whole _
theorem scrPts_eq (c : Dev nD) (f : Buf (Elt F) ((c : Thread nD τ).loc cc0_scratch0)) :
    scrPts c f = (((c : Thread nD τ).loc cc0_scratch0) ↦{fullShare} f : sProp 𝕄) := by unfold scrPts; rw [scr_set]
theorem xPts_eq (c : Dev nD) : xPts m ρ c = (((c : Thread nD τ).loc cc0_stg0_0) ↦{fullShare} xstg m ρ c : sProp 𝕄) := by
  unfold xPts; rw [View.set_whole]

/-- The cells' invariants device `c`'s body opens, under the names `K` the launch allocated them at: its own three,
    its partner's entry cell (its signal) and its partner's receive cell (its copy). -/
def invs (K : Dev nD × Fin 3 → ℕ) (c : Dev nD) : sProp 𝕄 :=
  iprop(cellInv ER (meshRd m ρ) (K (c, 0)) (barCell c) ∗ cellInv ER (meshRd m ρ) (K (c, 1)) (sendCell c) ∗ cellInv ER (meshRd m ρ) (K (c, 2)) (recvCell c)
    ∗ cellInv ER (meshRd m ρ) (K (pr c, 0)) (barCell (pr c)) ∗ cellInv ER (meshRd m ρ) (K (pr c, 2)) (recvCell (pr c)))

instance invs_persistent (K : Dev nD × Fin 3 → ℕ) (c : Dev nD) : BI.Persistent (invs m ρ K c) := by unfold invs; infer_instance

/-- The exchange's ghost state device `c` starts from: the invariants; its positions at round 0 of its three cells;
    round 0 reached on the cells it pays and on its own send and receive cells; the three duty tokens it pays with —
    its partner's entry duty, its partner's receive duty, its own send duty. -/
def ghost (K : Dev nD × Fin 3 → ℕ) (c : Dev nD) : sProp 𝕄 :=
  iprop(invs m ρ K c
    ∗ atPos ER (barCell c) 0 ∅ 0 ∗ atPos ER (sendCell c) 0 ∅ 0 ∗ atPos ER (recvCell c) 0 ∅ 0
    ∗ reached ER (barCell (pr c)) 0 ∗ reached ER (recvCell (pr c)) 0 ∗ reached ER (sendCell c) 0 ∗ reached ER (recvCell c) 0
    ∗ dutyTok ER (barCell (pr c)) 0 false ∗ dutyTok ER (recvCell (pr c)) 0 false ∗ dutyTok ER (sendCell c) 0 false)

/-- What device `c`'s body starts from: that at some names, the credit for its two waits others pay (one unit on
    its entry cell, the copy's credit on its receive cell) and the level facts. -/
def start (c : Dev nD) : sProp 𝕄 :=
  iprop((∃ K, ghost m ρ K c) ∗ cred (tallyAt (barCell c) () 1) ∗ cred (tallyAt (recvCell c) () N) ∗ levAts L lv)

def Φ₀ (c : Dev nD) : sProp 𝕄 := iprop(start m ρ c ∗ ∃ f, scrPts c f)
/-- After the point: the two-slot buffer whole again, the two own cells at zero, closed. -/
def Φ₁ (c : Dev nD) : sProp 𝕄 := iprop((∃ f, scrPts c f) ∗ semVal (sendCell c) 0 ∗ semVal (recvCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

end Cert.KernelIdealRun

end
-- ==== Proof.KernelIdealSlots.lean ====
import proofs.«900961_g7700000000000962_dist_mean_ax1_xy_m1024_n512_v7x_xy2x2_bf16_1_alg».proof.Proof.KernelIdealProtocol

/-!
# The two slots of the exchange buffer

The buffer is 2 × 8 × 128: slot `j` is the indices with first coordinate `j`. A tile (8 × 128 row sums, kept as
1 × 8 × 128) is laid into the buffer by a function that ignores the slot coordinate, so that "slot 0 holds the
tile" and "slot 1 holds the tile" are both "the buffer agrees with this function there". Stored through slot 0,
copied slot 0 → slot 1 across devices, and read back through either slot, the tile is recovered unchanged.
-/

noncomputable section

namespace Cert.KernelIdealRun

open Cert.KernelIdeal Cert.KernelIdeal.Gen
open Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The two slots as sets of buffer indices -/

theorem src_set : (srcM : Memref sig .tc .vmem S8x128 .f32).view.set = rect0.set := by
  simp only [Memref.view_squeeze, Memref.view_slice, Memref.view_whole, View.set_reshape, View.set_slice_whole]

theorem dst_set : (dstM : Memref sig .tc .vmem S8x128 .f32).view.set = rect1.set := by
  simp only [Memref.view_squeeze, Memref.view_slice, Memref.view_whole, View.set_reshape, View.set_slice_whole]

/-- Slot 0 is the indices whose first coordinate is 0, slot 1 those where it is 1. -/
theorem mem_rect0 (i : S2x8x128.Idx) : i ∈ rect0.set ↔ (i 0).val = 0 := by
  rw [Rect.mem_set_unit]
  have h0 := (i 0).isLt; have h1 := (i 1).isLt; have h2 := (i 2).isLt
  constructor
  · intro h; have := h 0; simp at this; omega
  · intro h a
    match a with
    | ⟨0, _⟩ => simp; omega
    | ⟨1, _⟩ => simp; exact h1
    | ⟨2, _⟩ => simp; exact h2

theorem mem_rect1 (i : S2x8x128.Idx) : i ∈ rect1.set ↔ (i 0).val = 1 := by
  rw [Rect.mem_set_unit]
  have h0 := (i 0).isLt; have h1 := (i 1).isLt; have h2 := (i 2).isLt
  constructor
  · intro h; have := h 0; simp at this; omega
  · intro h a
    match a with
    | ⟨0, _⟩ => simp; omega
    | ⟨1, _⟩ => simp; exact h1
    | ⟨2, _⟩ => simp; exact h2

/-- The two slots partition the buffer. -/
theorem univ_sdiff_rect0 : (Finset.univ : Finset S2x8x128.Idx) \ rect0.set = rect1.set := by
  ext i
  rw [Finset.mem_sdiff, mem_rect0, mem_rect1]
  have h0 : (i 0).val < 2 := (i 0).isLt
  constructor
  · rintro ⟨-, h⟩; omega
  · intro h; exact ⟨Finset.mem_univ _, by omega⟩

/-! ## Forgetting the slot coordinate undoes placing a tile in a slot -/

theorem lower_emb0 (y : S1x8x128.Idx) : lower (rect0.emb y) = y := by
  funext a
  refine Fin.ext ?_
  match a with
  | ⟨0, _⟩ => have : (y 0).val < 1 := (y 0).isLt; show 0 = (y 0).val; omega
  | ⟨1, _⟩ => show (rect0.emb y 1).val = (y 1).val; rw [Rect.emb_apply]; simp
  | ⟨2, _⟩ => show (rect0.emb y 2).val = (y 2).val; rw [Rect.emb_apply]; simp

theorem lower_emb1 (y : S1x8x128.Idx) : lower (rect1.emb y) = y := by
  funext a
  refine Fin.ext ?_
  match a with
  | ⟨0, _⟩ => have : (y 0).val < 1 := (y 0).isLt; show 0 = (y 0).val; omega
  | ⟨1, _⟩ => show (rect1.emb y 1).val = (y 1).val; rw [Rect.emb_apply]; simp
  | ⟨2, _⟩ => show (rect1.emb y 2).val = (y 2).val; rw [Rect.emb_apply]; simp

/-! ## A tile stored, landed and read back -/

/-- Storing a device's tile through slot 0 makes the buffer agree with the tile function on slot 0. -/
theorem store_tile (c : Dev nD) (f : (cc0_scratch0 : Ref sig .tc).ty.Contents (Elt F)) :
    ∀ i ∈ (srcM : Memref sig .tc .vmem S8x128 .f32).view.set,
      ((cM : Memref sig .tc .vmem S2x8x128 .f32).access rect0).write (Elt F) f (k0_pay2 (xstg m ρ c)) Finset.univ i = tile m ρ c i := by
  intro i hi
  rw [src_set] at hi
  obtain ⟨y, rfl⟩ := View.exists_emb_of_mem_set ((cM : Memref sig .tc .vmem S2x8x128 .f32).access rect0) (i := i)
    (by rw [View.set_slice_whole]; exact hi)
  rw [View.write_emb_of_mem _ _ (Finset.mem_univ _)]
  show k0_pay2 (xstg m ρ c) y = k0_pay2 (xstg m ρ c) (lower (rect0.emb y))
  rw [lower_emb0]

/-- What the copy lands in slot 1 — slot 0 of a buffer holding a tile, read and written across — agrees with that
    tile function on slot 1: the tile function does not look at the slot coordinate. -/
theorem landed_tile (c : Dev nD) (fd : (cc0_scratch0 : Ref sig .tc).ty.Contents (Elt F)) :
    ∀ i ∈ (dstM : Memref sig .tc .vmem S8x128 .f32).view.set,
      (dstM : Memref sig .tc .vmem S8x128 .f32).view.write (Elt F) fd ((srcM : Memref sig .tc .vmem S8x128 .f32).view.read (Elt F) (tile m ρ c)) Finset.univ i
        = tile m ρ c i := by
  intro i hi
  obtain ⟨y, rfl⟩ := View.exists_emb_of_mem_set (dstM : Memref sig .tc .vmem S8x128 .f32).view hi
  rw [View.write_emb_of_mem _ _ (Finset.mem_univ _), View.read_apply]
  show tile m ρ c (rect0.emb (Shape.reshapeEquiv squeezes_S1x8x128_S8x128.numel_eq y)) = tile m ρ c (rect1.emb (Shape.reshapeEquiv squeezes_S1x8x128_S8x128.numel_eq y))
  unfold tile
  rw [lower_emb0, lower_emb1]

/-- A tile function read through slot `j` is the tile. -/
theorem read_slot0 (X : FVec F S1x8x128 .f32) :
    (cM : Memref sig .tc .vmem S2x8x128 .f32).view.readAt (Elt F) rect0.toLoadRect (fun i => X (lower i)) = X := by
  funext y
  show X (lower (rect0.emb y)) = X y
  rw [lower_emb0]
theorem read_slot1 (X : FVec F S1x8x128 .f32) :
    (cM : Memref sig .tc .vmem S2x8x128 .f32).view.readAt (Elt F) rect1.toLoadRect (fun i => X (lower i)) = X := by
  funext y
  show X (lower (rect1.emb y)) = X y
  rw [lower_emb1]

/-! ## The buffer cut into its slots and put together again -/

theorem scr_split (c : Dev nD) (f : Buf (Elt F) ((c : Thread nD τ).loc cc0_scratch0)) :
    (scrPts c f : sProp 𝕄) ⊢ iprop(srcPts c f ∗ dstPts c f) := by
  unfold scrPts srcPts dstPts
  rw [scr_set, src_set, dst_set, ← univ_sdiff_rect0]
  exact (pointsTo_split_subset (Finset.subset_univ _)).1

theorem scr_join (c : Dev nD) (f g : Buf (Elt F) ((c : Thread nD τ).loc cc0_scratch0)) :
    (iprop(srcPts c f ∗ dstPts c g) : sProp 𝕄) ⊢ iprop(∃ h, scrPts c h) := by
  unfold scrPts srcPts dstPts
  rw [scr_set, src_set, dst_set, ← univ_sdiff_rect0]
  iintro ⟨H0, H1⟩
  iexists _
  iapply (pointsTo_join_subset (Finset.subset_univ _))
  isplitl [H0]; · iexact H0
  iexact H1

end Cert.KernelIdealRun

end
-- ==== Proof.KernelIdealBody.lean ====
import proofs.«900961_g7700000000000962_dist_mean_ax1_xy_m1024_n512_v7x_xy2x2_bf16_1_alg».proof.Proof.KernelIdealSlots

/-!
# One device's body

The body of the kernel on a device `c`, stepped effect by effect from the exchange's ghost state: the signal to the
partner's entry cell (handing over slot 1 of the buffer), the row sums stored in slot 0, the wait on the own entry
cell (the partner's slot 1 arrives), the copy of slot 0 into the partner's slot 1, the waits on the own send and
receive cells (slot 0 comes back holding the own tile, slot 1 holding the partner's), and the result computed from
the two tiles. Contents are carried throughout by the slot-independent tile function.
-/

noncomputable section

namespace Cert.KernelIdealRun

open Cert.KernelIdeal Cert.KernelIdeal.Gen
open Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The accesses' footprints and what they read -/

abbrev r0x : Rect S1024x512 := Rect.unit (s := S1024x512) ![0, 0] S1024x512.size inb_S1024x512_S1024x512_0_0
abbrev r0o : Rect S1024x1 := Rect.unit (s := S1024x1) ![0, 0] S1024x1.size inb_S1024x1_S1024x1_0_0

theorem hz2 : (![0, 0] : Fin 2 → Nat) = fun _ => 0 := funext fun a => by fin_cases a <;> rfl

theorem read_x (f : (cc0_stg0_0 : Ref sig .tc).ty.Contents (Elt F)) : (xM : Memref sig .tc .vmem S1024x512 .f32).view.readAt (Elt F) r0x.toLoadRect f = f :=
  Memref.readAt_unit_zero (Elt F) cc0_stg0_0 hz2 _ f
theorem write_out (f w : (cc0_stg1_0 : Ref sig .tc).ty.Contents (Elt F)) :
    ((oM : Memref sig .tc .vmem S1024x1 .f32).access r0o : View sig .tc _ _ _).write (Elt F) f w Finset.univ = w :=
  Memref.write_access_unit_zero_univ (Elt F) cc0_stg1_0 hz2 _ f w

/-- A load or store through slot `j` of the whole buffer touches slot `j` only. -/
theorem load0_sub : (cM : Memref sig .tc .vmem S2x8x128 .f32).view.setOn rect0.toLoadRect.set ⊆ (srcM : Memref sig .tc .vmem S8x128 .f32).view.set := by
  rw [src_set]; intro i hi; obtain ⟨x, hx, rfl⟩ := Finset.mem_map.mp hi; exact hx
theorem load1_sub : (cM : Memref sig .tc .vmem S2x8x128 .f32).view.setOn rect1.toLoadRect.set ⊆ (dstM : Memref sig .tc .vmem S8x128 .f32).view.set := by
  rw [dst_set]; intro i hi; obtain ⟨x, hx, rfl⟩ := Finset.mem_map.mp hi; exact hx
theorem store0_sub : ((cM : Memref sig .tc .vmem S2x8x128 .f32).access rect0).setOn Finset.univ ⊆ (srcM : Memref sig .tc .vmem S8x128 .f32).view.set := by
  rw [src_set, View.setOn_univ, View.set_slice_whole]

theorem read_tile0 (c : Dev nD) : (cM : Memref sig .tc .vmem S2x8x128 .f32).view.readAt (Elt F) rect0.toLoadRect (tile m ρ c) = k0_pay2 (xstg m ρ c) :=
  read_slot0 (k0_pay2 (xstg m ρ c))
theorem read_tile1 (c : Dev nD) : (cM : Memref sig .tc .vmem S2x8x128 .f32).view.readAt (Elt F) rect1.toLoadRect (tile m ρ c) = k0_pay2 (xstg m ρ c) :=
  read_slot1 (k0_pay2 (xstg m ρ c))

section Body

variable (K : Dev nD × Fin 3 → ℕ)

/-- The copy, addressed to `n = pr c`: slot 0 of `c`, holding `c`'s tile, goes to slot 1 of the partner. It pays
    `c`'s send duty with slot 0 itself and the partner's receive duty with the partner's slot 1 rewritten — which
    agrees there with `c`'s tile. -/
theorem wp_send_mesh (c n : Dev nD) (hn : n = pr c) {hsc : (dstM : Memref sig (Dev.tc n : Thread nD τ).2.kind .vmem S8x128 .f32).view.ref.isScScratch = false}
    {hsrc : (srcM : Memref sig .tc .vmem S8x128 .f32).view.WordExact} {hdst : (dstM : Memref sig .tc .vmem S8x128 .f32).view.WordExact}
    {hsem : DmaTarget.Typed .vmem (.dma recvS.sem) (.remote (Dev.tc n : Thread nD τ) (dstM : Memref sig .tc .vmem S8x128 .f32) (.dma sendS.sem) hsc)}
    {α : Type} {Q : α → sProp 𝕄} {k : PUnit → Prog (TpuEff nD τ sig (Elt F) Λ₀ .tc) α}
    (fn : Buf (Elt F) ((dstM : Memref sig .tc .vmem S8x128 .f32).view.loc (pr c : Thread nD τ))) (W : Waits sig Unit) :
    iprop(cellInv ER (meshRd m ρ) (K (c, 1)) (sendCell c) ∗ cellInv ER (meshRd m ρ) (K (pr c, 2)) (recvCell (pr c))
        ∗ srcPts c (tile m ρ c) ∗ dstPts (pr c) fn
        ∗ owes (c : Thread nD τ) (tallyAt (recvCell (pr c)) () N) W
        ∗ dutyTok ER (sendCell c) 0 false ∗ reached ER (sendCell c) 0
        ∗ dutyTok ER (recvCell (pr c)) 0 false ∗ reached ER (recvCell (pr c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma srcM (.remote (Dev.tc n : Thread nD τ) dstM (.dma sendS.sem) hsc) (.dma recvS.sem) hsrc hdst hsem) k) Q) := by
  subst hn
  unfold srcPts dstPts
  exact Rounds.wp_send_pointsTo 𝒱₀ ER (meshRd m ρ) (c : Thread nD τ) none (κ₁ := K (c, 1)) (κ₂ := K (pr c, 2))
    (r₁ := 0) (r₂ := 0) (d₁ := false) (d₂ := false) (fd := fn)
    (by rw [duties_send]; exact Finset.mem_singleton_self _) (by rw [duties_recv]; exact Finset.mem_singleton_self _)
    () () N rfl (amount_send m ρ c false) (amount_recv m ρ (pr c) false) 0 (by rw [zero_add]) (W := W)
    (by rw [payload_send]; exact BI.Entails.refl _)
    (by rw [payload_recv]; unfold recvPay dstPts; rw [pr_pr]; exact Entails.of_eq (pointsTo_congr (landed_tile m ρ c fn)))

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What one device's body starts from: its ghost state at the names `K`, its two launch credits, the levels, the
    two-slot buffer, what it owes, and its two staging buffers (the block of `x` fetched; the result's, at anything). -/
def bodyPre (c : Dev nD) : sProp 𝕄 :=
  iprop((ghost m ρ K c ∗ cred (tallyAt (barCell c) () 1) ∗ cred (tallyAt (recvCell c) () N) ∗ levAts L lv ∗ ∃ f, scrPts c f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

/-- What it ends with: the buffer whole, its own two cells closed at zero, nothing owed, `x`'s block untouched and the
    result's staging buffer at the body's last payload of the two tiles. -/
def bodyPost (c : Dev nD) : sProp 𝕄 :=
  iprop(Φ₁ c ∗ (dats m ρ 0 c).owesAt () t₀.succ ∗ stg c cc0_stg0_0 (xstg m ρ c) ∗ stg c cc0_stg1_0 (outAt m ρ c))

set_option maxHeartbeats 1600000 in
/-- One device's body, effect by effect in program order. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton, k0_part2_eq_skeleton]; unfold k0_part1_skel k0_part2_skel
  simp only [semSignalWord, semWaitWord, Prog.lift, Prog.bind_op, Prog.bind_ret, Prog.pure_eq_ret, wp_deviceId]
  unfold bodyPre ghost invs
  iintro ⟨⟨⟨⟨⟨#HIbar, #HIsnd, #HIrcv, #HIbarP, #HIrcvP⟩, HatB, HatS, HatV, #HrBP, #HrVP, #HrS, #HrV, HtBP, HtVP, HtS⟩, HcB, HcV, #Hlev, ⟨%f0, Hscr⟩⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  simp only [dev1_eq c]
  unfold O₀ O₁
  -- the buffer cut into its two slots
  ihave Hsd := (scr_split c f0) $$ Hscr
  icases Hsd with ⟨Hsrc, Hdst⟩
  -- the SIGNAL to the partner's entry cell: slot 1 goes with it, and that the receive cell is at round 0
  iapply (Rounds.wp_signal 𝒱₀ ER (meshRd m ρ) (c : Thread nD τ) none (dst := (pr c : Thread nD τ)) (κ := K (pr c, 0))
      (d := false) (by rw [duties_bar]; exact Finset.mem_singleton_self _) ((amount_bar m ρ (pr c) false).trans (by decide)) () (tallyAt (recvCell (pr c)) () N) rfl)
    $$ [HO HtBP Hdst]
  · isplitr; · iexact HIbarP
    isplitl [HO]; · iexact HO
    isplitl [HtBP]; · iexact HtBP
    isplitl [Hdst]
    · rw [payload_bar]; unfold barPay; rw [pr_pr]
      isplitl [Hdst]; · iexists f0; iexact Hdst
      iexact HrV
    · iexact HrBP
  iintro HO
  -- the load of the block of `x`
  iapply (wp_load 𝒱₀ (c : Thread nD τ) none Set.univ (m := xM) (Finset.subset_univ _)) $$ Hx; iintro Hx
  rw [read_x]
  -- slot 0 read (the value is not used) and overwritten with the tile of row sums
  unfold srcPts
  iapply (wp_load 𝒱₀ (c : Thread nD τ) none Set.univ (m := cM) load0_sub) $$ Hsrc; iintro Hsrc
  iapply (wp_store 𝒱₀ (c : Thread nD τ) none Set.univ (m := cM) (r := rect0) (Mk := Finset.univ) store0_sub) $$ Hsrc; iintro Hsrc
  ihave Hsrc := (Entails.of_eq (pointsTo_congr (store_tile m ρ c f0))) $$ Hsrc
  -- the WAIT on the own entry cell, owing the partner's receive credit: the partner's slot 1 comes with it
  iapply (Rounds.wp_wait_rest_token 𝒱₀ ER (meshRd m ρ) (c : Thread nD τ) none (κ := K (c, 0))
      (wpE_semWait_eq 𝒱₀ (c : Thread nD τ) none Set.univ) (Set.mem_univ _) () (O := tallyAt (recvCell (pr c)) () N) (W := W) (R := 0) (m := 0) (T := ∅)
      (by rw [expect_bar]; decide)) $$ [HcB HO HatB]
  · isplitr; · iexact HIbar
    isplitl [HcB]; · iexact HcB
    isplitl [HO]; · iexact HO
    isplitr; · iapply (mayWait_bar c); iexact Hlev
    iexact HatB
  iintro ⟨HO, HatB, -, Hpay⟩
  ihave Hp := (Entails.of_eq (rest_bar m ρ c)) $$ Hpay
  unfold barPay
  icases Hp with ⟨⟨%fn, HdstP⟩, #HrVP'⟩
  -- the COPY to the partner
  iapply (wp_send_mesh m ρ K c _ (dev2_eq c) fn (insert (SemLoc.reg barS, ()) W)) $$ [Hsrc HdstP HO HtS HtVP]
  · isplitr; · iexact HIsnd
    isplitr; · iexact HIrcvP
    isplitl [Hsrc]; · unfold srcPts; iexact Hsrc
    isplitl [HdstP]; · iexact HdstP
    isplitl [HO]; · iexact HO
    isplitl [HtS]; · iexact HtS
    isplitr; · iexact HrS
    isplitl [HtVP]; · iexact HtVP
    iexact HrVP
  iintro ⟨HcS, HO⟩
  -- the wait on the own SEND cell: slot 0 back, still holding the own tile
  iapply (Rounds.wp_wait_rest_token 𝒱₀ ER (meshRd m ρ) (c : Thread nD τ) none (κ := K (c, 1))
      (wpE_waitDma2_eq 𝒱₀ (c : Thread nD τ) none Set.univ) (Set.mem_univ _) () (O := 0) (W := insert (SemLoc.reg barS, ()) W) (R := 0) (m := 0) (T := ∅)
      (by rw [Nat.zero_add, expect_send])) $$ [HcS HO HatS]
  · isplitr; · iexact HIsnd
    isplitl [HcS]; · iexact HcS
    isplitl [HO]; · iexact HO
    isplitr; · rw [MayWait_zero]; iempintro
    iexact HatS
  iintro ⟨HO, HatS, -, Hpay⟩
  ihave Hsrc := (Entails.of_eq (rest_send m ρ c)) $$ Hpay
  -- the wait on the own RECEIVE cell: slot 1 back, holding the partner's tile
  iapply (Rounds.wp_wait_rest_token 𝒱₀ ER (meshRd m ρ) (c : Thread nD τ) none (κ := K (c, 2))
      (wpE_waitDma2_eq 𝒱₀ (c : Thread nD τ) none Set.univ) (Set.mem_univ _) () (O := 0)
      (W := insert (SemLoc.dma sendS.sem, ()) (insert (SemLoc.reg barS, ()) W)) (R := 0) (m := 0) (T := ∅)
      (by rw [Nat.zero_add, expect_recv])) $$ [HcV HO HatV]
  · isplitr; · iexact HIrcv
    isplitl [HcV]; · iexact HcV
    isplitl [HO]; · iexact HO
    isplitr; · rw [MayWait_zero]; iempintro
    iexact HatV
  iintro ⟨HO, HatV, -, Hpay⟩
  ihave Hdst := (Entails.of_eq (rest_recv m ρ c)) $$ Hpay
  unfold sendPay recvPay srcPts dstPts
  -- the two own cells close: their counters at zero are the device's again
  imod (Rounds.cell_close ER (meshRd m ρ) (Set.mem_univ (K (c, 1))) (fun h => h) (R := 0 + 1) (duties_later m ρ (sendCell c))) $$ [HatS] with HzS
  · isplitr; · iexact HIsnd
    iexact HatS
  imod (Rounds.cell_close ER (meshRd m ρ) (Set.mem_univ (K (c, 2))) (fun h => h) (R := 0 + 1) (duties_later m ρ (recvCell c))) $$ [HatV] with HzV
  · isplitr; · iexact HIrcv
    iexact HatV
  -- the two tiles read back, the result computed and stored
  iapply (wp_load 𝒱₀ (c : Thread nD τ) none Set.univ (m := cM) load0_sub) $$ Hsrc; iintro Hsrc
  rw [read_tile0]
  iapply (wp_load 𝒱₀ (c : Thread nD τ) none Set.univ (m := cM) load1_sub) $$ Hdst; iintro Hdst
  rw [read_tile1]
  iapply (wp_load 𝒱₀ (c : Thread nD τ) none Set.univ (m := oM) (Finset.subset_univ _)) $$ Hout; iintro Hout
  iapply (wp_store 𝒱₀ (c : Thread nD τ) none Set.univ (m := oM) (r := r0o) (Mk := Finset.univ) (Finset.subset_univ _)) $$ Hout; iintro Hout
  rw [write_out, wp_ret]; imodintro
  iapply Hk
  unfold bodyPost Φ₁ Dat.owesAt Pipeline.owesWithin
  rw [show (dats m ρ 0 c).owed t₀.succ = 0 from rfl]
  isplitl [Hsrc Hdst HzS HzV]
  · isplitl [Hsrc Hdst]
    · iapply (scr_join c (tile m ρ c) (tile m ρ (pr c)))
      unfold srcPts dstPts
      isplitl [Hsrc]; · iexact Hsrc
      iexact Hdst
    isplitl [HzS]; · iexact HzS
    iexact HzV
  isplitl [HO]
  · iexists (insert (SemLoc.dma recvS.sem, ()) (insert (SemLoc.dma sendS.sem, ()) (insert (SemLoc.reg barS, ()) W)))
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hrest⟩, Hscr⟩, Ho, Hx, Hout⟩
  iapply (sound_body m ρ K c fun _ => bodyPost m ρ c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx] <;> iassumption
  · iintro H; iexact H

end Body

end Cert.KernelIdealRun

end
-- ==== Proof.KernelIdealLaunch.lean ====
import proofs.«900961_g7700000000000962_dist_mean_ax1_xy_m1024_n512_v7x_xy2x2_bf16_1_alg».proof.Proof.KernelIdealProtocol

/-!
# The launch: from each device's body to the run of the whole mesh

The exchange's ghost state is allocated for all four devices under one update (the entry cells are shared between
partners): every cell's round state and invariant, each device's positions, and the duty tokens — dealt to the
device that PAYS the duty (an entry or receive cell's token to the owner's partner, a send cell's to its owner).
The units other devices owe a device's cells come to it as credit (one unit on its entry cell, the copy's credit
on its receive cell). With these the library's launch theorem turns "each device's body is proved" into the
termination of every weakly fair execution of the mesh, every array ending at the proof data's final contents.
-/

noncomputable section

namespace Cert.KernelIdealRun

open Cert.KernelIdeal Cert.KernelIdeal.Gen
open Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def meshCells : Finset (GSem nD τ sig) := Finset.univ.map ⟨kcell, kcell_injective⟩

/-- Every cell has one duty token: (cell, round 0, duty `false`). -/
abbrev tokOf (ck : Dev nD × Fin 3) : GSem nD τ sig × ℕ × Bool := (kcell ck, 0, false)
theorem tokOf_injective : Function.Injective (tokOf : Dev nD × Fin 3 → GSem nD τ sig × ℕ × Bool) :=
  fun a b h => kcell_injective (congrArg Prod.fst h)
def meshToks : Finset (GSem nD τ sig × ℕ × Bool) := Finset.univ.map ⟨tokOf, tokOf_injective⟩

def u₀ : UU :=
  (initOf (Pipeline.cells cfgs cellOf_inj) (Pipeline.launchToks cfgs cellOf_inj), initOf meshCells meshToks)

/-- The duty tokens of device `c`'s own three cells. -/
def toks (c : Dev nD) : sProp 𝕄 := bigSep Finset.univ fun k : Fin 3 => dutyTok ER (kcell (c, k)) 0 false

/-- What the launch element deals device `c`. -/
def G (c : Dev nD) : sProp 𝕄 :=
  iprop((bigSep Finset.univ fun k : Fin 3 => roundState ER (meshRd m ρ) (kcell (c, k)) 0)
    ∗ (bigSep Finset.univ fun k : Fin 3 => iprop(atPos ER (kcell (c, k)) 0 ∅ 0 ∗ reached ER (kcell (c, k)) 0)) ∗ toks c)

/-- What the global step makes of it. -/
def G' (c : Dev nD) : sProp 𝕄 := iprop(∃ K, ghost m ρ K c)

theorem bigSep_fin3 (Φ : Fin 3 → sProp 𝕄) : bigSep Finset.univ Φ = iprop(Φ 0 ∗ Φ 1 ∗ Φ 2) := bigSep_univ_eq_bigSepL [0, 1, 2] (by decide) (by decide) Φ

theorem fund_mesh : BI.own (ER (initOf meshCells meshToks)) ⊢ (|==> bigSep Finset.univ (G m ρ) : sProp 𝕄) := by
  have hX (Φ : GSem nD τ sig → sProp 𝕄) : bigSep meshCells Φ = bigSep Finset.univ fun c : Dev nD => bigSep Finset.univ fun k : Fin 3 => Φ (kcell (c, k)) := by
    unfold meshCells; rw [bigSep_map, bigSep_univ_prod]; rfl
  have hT : bigSep meshToks (fun x => (dutyTok ER x.1 x.2.1 x.2.2 : sProp 𝕄)) = bigSep Finset.univ fun c : Dev nD => toks c := by
    unfold meshToks; rw [bigSep_map, bigSep_univ_prod]; rfl
  iintro HX
  imod (Rounds.fund ER (meshRd m ρ) meshCells meshToks) $$ HX with ⟨Hst, Hr, Hat, Htok⟩
  imodintro
  ihave Hst' := (Entails.of_eq (hX fun g => roundState ER (meshRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The send and receive semaphores are the kernel's own two; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
/-- the entry semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (meshRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (meshRd m ρ) (kcell (c, k)) 0)
      ⊢ (|={Set.univ}=> bigSep Finset.univ fun k => iprop(∃ κ : ℕ, cellInv ER (meshRd m ρ) κ (kcell (c, k))) : sProp 𝕄) from by
        rw [← bigSep_sep']
        exact (bigSep_mono fun k _ => (Rounds.body_intro ER (meshRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 3 → ℕ) : sProp 𝕄 :=
  iprop((bigSep Finset.univ fun ck : Dev nD × Fin 3 => cellInv ER (meshRd m ρ) (K ck) (kcell ck))
    ∗ bigSep Finset.univ fun ck : Dev nD × Fin 3 => reached ER (kcell ck) 0)

instance records_persistent (K : Dev nD × Fin 3 → ℕ) : BI.Persistent (records m ρ K) := by unfold records; infer_instance

theorem inv_at (K : Dev nD × Fin 3 → ℕ) (ck : Dev nD × Fin 3) :
    (bigSep Finset.univ fun ck : Dev nD × Fin 3 => (cellInv ER (meshRd m ρ) (K ck) (kcell ck) : sProp 𝕄)) ⊢ cellInv ER (meshRd m ρ) (K ck) (kcell ck) :=
  bigSep_elim (Finset.mem_univ ck)
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What stays with device `c`: its positions, and the tokens of the duties IT pays. -/
def payToks (c : Dev nD) : sProp 𝕄 :=
  iprop(dutyTok ER (barCell (pr c)) 0 false ∗ dutyTok ER (recvCell (pr c)) 0 false ∗ dutyTok ER (sendCell c) 0 false)
def linear (c : Dev nD) : sProp 𝕄 :=
  iprop((atPos ER (barCell c) 0 ∅ 0 ∗ atPos ER (sendCell c) 0 ∅ 0 ∗ atPos ER (recvCell c) 0 ∅ 0) ∗ payToks c)

theorem ghost_intro (K : Dev nD × Fin 3 → ℕ) (c : Dev nD) : iprop(records m ρ K ∗ linear c) ⊢ G' m ρ c := by
  unfold records linear payToks G' ghost invs
  iintro ⟨⟨#HI, #HR⟩, ⟨HaB, HaS, HaV⟩, HtBP, HtVP, HtS⟩
  iexists K
  isplitr
  · isplitr; · iapply (inv_at m ρ K (c, 0)); iexact HI
    isplitr; · iapply (inv_at m ρ K (c, 1)); iexact HI
    isplitr; · iapply (inv_at m ρ K (c, 2)); iexact HI
    isplitr; · iapply (inv_at m ρ K (pr c, 0)); iexact HI
    iapply (inv_at m ρ K (pr c, 2)); iexact HI
  isplitl [HaB]; · iexact HaB
  isplitl [HaS]; · iexact HaS
  isplitl [HaV]; · iexact HaV
  isplitr; · iapply (reached_at (F := F) (pr c, 0)); iexact HR
  isplitr; · iapply (reached_at (F := F) (pr c, 2)); iexact HR
  isplitr; · iapply (reached_at (F := F) (c, 1)); iexact HR
  isplitr; · iapply (reached_at (F := F) (c, 2)); iexact HR
  isplitl [HtBP]; · iexact HtBP
  isplitl [HtVP]; · iexact HtVP
  iexact HtS

/-- The tokens dealt to their payers: an entry cell's and a receive cell's token go to the partner, a send cell's
    stays. -/
theorem toks_around : (bigSep Finset.univ fun c : Dev nD => (toks c : sProp 𝕄)) ⊢ bigSep Finset.univ fun c : Dev nD => payToks c := by
  unfold toks payToks
  simp only [bigSep_fin3]
  rw [bigSep_sep', bigSep_sep', bigSep_sep', bigSep_sep',
    bigSep_univ_equiv prEquiv (fun c : Dev nD => (dutyTok ER (kcell (c, 0)) 0 false : sProp 𝕄)),
    bigSep_univ_equiv prEquiv (fun c : Dev nD => (dutyTok ER (kcell (c, 2)) 0 false : sProp 𝕄))]
  iintro ⟨H1, H2, H3⟩
  isplitl [H1]; · iexact H1
  isplitl [H3]; · iexact H3
  iexact H2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (meshRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 3 => iprop(∃ κ : ℕ, cellInv ER (meshRd m ρ) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (meshRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

theorem bar_eq_iff {a b : Dev nD} : Iff (barCell a = barCell b) (a = b) :=
  ⟨fun h => Fin.ext (congrArg (fun g : GSem nD τ sig => g.1.1.val) h), fun h => h ▸ rfl⟩
theorem recv_eq_iff {a b : Dev nD} : Iff (recvCell a = recvCell b) (a = b) :=
  ⟨fun h => Fin.ext (congrArg (fun g : GSem nD τ sig => g.1.1.val) h), fun h => h ▸ rfl⟩

theorem eq_pr_iff (d c : Dev nD) : Iff (c = pr d) (d = pr c) :=
  ⟨fun h => by rw [h, pr_pr], fun h => by rw [h, pr_pr]⟩

/-- What device `d` owes device `c`'s entry cell: a unit if `d` is `c`'s partner. -/
theorem owed_bar (d c : Dev nD) : O₀ d (barCell c) () = if d = pr c then 1 else 0 := by
  unfold O₀ O₁
  rw [Pi.add_apply, Finsupp.add_apply, tallyAt_ne_cell (fun h => recv_ne_bar (congrArg Prod.snd h).symm),
    tallyAt_apply, Finsupp.zero_apply, Nat.zero_add]
  by_cases h : d = pr c
  · rw [if_pos h, if_pos ⟨bar_eq_iff.mpr ((eq_pr_iff d c).mpr h), rfl⟩]
  · rw [if_neg h, if_neg (fun ⟨h1, _⟩ => h ((eq_pr_iff d c).mp (bar_eq_iff.mp h1)))]

theorem owed_recv (d c : Dev nD) : O₀ d (recvCell c) () = if d = pr c then N else 0 := by
  unfold O₀ O₁
  rw [Pi.add_apply, Finsupp.add_apply, tallyAt_apply,
    tallyAt_ne_cell (fun h => recv_ne_bar (congrArg Prod.snd h)), Finsupp.zero_apply, Nat.add_zero]
  by_cases h : d = pr c
  · rw [if_pos h, if_pos ⟨recv_eq_iff.mpr ((eq_pr_iff d c).mpr h), rfl⟩]
  · rw [if_neg h, if_neg (fun ⟨h1, _⟩ => h ((eq_pr_iff d c).mp (recv_eq_iff.mp h1)))]

theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (pr c) fun _ => 1, if_pos (Finset.mem_univ _)]

theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c, Finset.sum_ite_eq' Finset.univ (pr c) fun _ => N,
    if_pos (Finset.mem_univ _)]

theorem creds (c : Dev nD) :
    (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; rw [scrPts_eq]; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁
  iintro ⟨⟨%f, Hr⟩, HzS, HzV⟩
  isplitr; · iempintro
  isplitl [HzS HzV]
  · isplitl [HzS] <;> iassumption
  iexists f; rw [← scrPts_eq]; iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of four devices, for any float values, from any memory with zero counters, given each
    device's body: every weakly fair execution of @main — partners shaking hands on the entry semaphore, then swapping
    tiles — terminates, and every final state has each device's arrays at the proof data's final contents. -/
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_mesh m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The `x` array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.KernelIdealRun

end
-- ==== Proof.KernelIdealFinal.lean ====
import proofs.«900961_g7700000000000962_dist_mean_ax1_xy_m1024_n512_v7x_xy2x2_bf16_1_alg».proof.Proof.KernelIdealBody
import proofs.«900961_g7700000000000962_dist_mean_ax1_xy_m1024_n512_v7x_xy2x2_bf16_1_alg».proof.Proof.KernelIdealLaunch

/-!
# The run with values

The launch theorem leaves every array at the proof data's final contents. Read off: the argument array is never
written, so it ends as it began; the result array is written once, whole, by the one grid point, so it ends at what
the body stored — its last payload applied to the device's own tile and its partner's.
-/

noncomputable section

namespace Cert.KernelIdealRun

open Cert.KernelIdeal Cert.KernelIdeal.Gen
open Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the arrays hold after the run -/

/-- The block of `x` a device's staging buffer is fetched with is its whole argument array. -/
theorem xstg_eq (c : Dev nD) : xstg m ρ c = m ((c : Thread nD τ).loc main_arg0) := by
  have hz' : (fun a => win0_0.index (0 : Fin 1) a * main_arg0.ty.shape.size a) = fun _ => 0 := funext fun a => by fin_cases a <;> decide
  exact Memref.read_access_unit_zero (Elt F) main_arg0 hz' (fun a => by rw [congrFun hz' a]; simp) _

/-- The result array after the run: the one point writes its whole block, which is the whole array. -/
theorem finalA_out (c : Dev nD) : finalA m ρ c (1 : Fin 2) = outAt m ρ c := by
  unfold finalA
  refine (dats (F := F) m ρ 0 c).arrAt_eq_of_cover (1 : Fin 2) (outAt m ρ c) (fun t _ => ?_) (fun i => ⟨t₀, flush0_1 _, ?_⟩)
  · rw [fin_N t]
    show (cfg0.win (1 : Fin 2)).cut (grid0.coords t₀) ((dats m ρ 0 c).after 1 t₀) = _
    have hz' : (fun a => win0_1.index t₀ a * main_v1.ty.shape.size a) = fun _ => 0 := funext fun a => by fin_cases a <;> decide
    exact (Memref.read_access_unit_zero (Elt F) main_v1 hz' (fun a => by rw [congrFun hz' a]; simp) (outAt m ρ c)).symm
  · show i ∈ ((cfg0.win (1 : Fin 2)).blk t₀).view.set
    rw [show ((cfg0.win (1 : Fin 2)).blk t₀).view.set = Finset.univ from by decide]
    exact Finset.mem_univ _

/-- THE RUN, with values: at the compiled mesh, for any float values, from any memory with zero counters, every weakly
    fair execution of @main terminates, each device's result array ends at the body's last payload of its own tile and
    its partner's, and its argument array ends as it began. -/
theorem run : θ_run defs (onTc (τ := τ) (main (F := F))) ⟨m, fun _ => 0, ρ⟩ (fun r => ∀ c : Dev nD,
    r.2.mem ((c.tc : Thread nD τ).loc main_v1) = outAt m ρ c
    ∧ r.2.mem ((c.tc : Thread nD τ).loc main_arg0) = m ((c.tc : Thread nD τ).loc main_arg0)) :=
  (θ_run defs _ _).mono (fun _ h c => ⟨(h c (1 : Fin 2)).trans (finalA_out m ρ c), (h c (0 : Fin 2)).trans (finalA_x m ρ c)⟩)
    (run_main m ρ (body_obligation m ρ))

/-- info: 'Cert.KernelIdealRun.run' depends on axioms: [propext, Classical.choice, Quot.sound] -/
#guard_msgs in #print axioms run

end Cert.KernelIdealRun

end
-- ==== Proof.MeanValue.lean ====
/-
  The value of the distributed row mean, one device's block at a time (pure mathematics over the extended reals).

  The whole argument is `x : [2048, 1024]`; device `c` of the 2 × 2 mesh holds the block `(c / 2, c % 2)` of it, a
  `[1024, 512]` array, and its partner holds the other half of the same 1024 global rows. Each device sums its rows into an
  `[8, 128]` tile (row `128 i + l` of the block at `(i, l)`), adds the partner's tile, scales by `2⁻¹⁰`, multiplies on the
  left by the selector `sel[r, i] = [r / 128 = i]`, masks with `diag[r, l] = [r % 128 = l]` and sums over the lanes: at row
  `r` what is left is the scaled entry `(r / 128, r % 128)`, the sum of row `r` over both halves, times `2⁻¹⁰`. The
  reference divides the sum of the global row by `1024`. The two agree on every extended real, with no finiteness
  hypothesis: the only laws used are `1 · y = y`, `0 · y = 0`, `x + 0 = x`, commutativity of `+`, the split of a sum over
  1024 columns into its two halves, and `x / 1024 = x · (1 / 1024)`, which holds at the infinities too.

  The selector and the mask are computed on 32-bit words by the signed floor-division and floor-remainder idioms; on row
  numbers below 1024 these are the natural quotient and remainder by 128, checked by evaluation over the 1024 rows.
-/
import proofs.«900961_g7700000000000962_dist_mean_ax1_xy_m1024_n512_v7x_xy2x2_bf16_1_alg».proof.Proof.Gen.KernelIdeal.Skeleton
import proofs.«900961_g7700000000000962_dist_mean_ax1_xy_m1024_n512_v7x_xy2x2_bf16_1_alg».proof.Proof.Gen.ReferenceIdeal.Read
import proofs.«900961_g7700000000000962_dist_mean_ax1_xy_m1024_n512_v7x_xy2x2_bf16_1_alg».proof.Proof.Peer
import Idealize.ShloMosaic.Lib.Layout
import Idealize.ShloMosaic.Lib.ValueIdx
import Idealize.ShloMosaic.Lib.Pipeline.Value
import Idealize.ShloMosaic.Lib.ValueLayout
import Idealize.ShloMosaic.PureOps.Ideal.Laws

noncomputable section

namespace Cert.MeanValue

open Idealize.ShloMosaic Idealize.ShloMosaic.ValueIdx Idealize.SL.Sem

open Cert.KernelIdeal Cert.KernelIdeal.Gen

/-! ## Words: the two integer idioms of the payloads, read at a row below 1024 -/

/-- Signed floor division of a 32-bit word by 128: the truncated quotient, lowered by one when the operands' signs
    differ and the remainder is not zero. -/
def floorDivWord (x : BitVec 32) : BitVec 32 :=
  Scalar.select
    (IntOp.andi
      (IntOp.cmpi .ne
        (IntOp.subi ((IntOp.cmpi .sgt x 0#32).setWidth 32) ((IntOp.cmpi .slt x 0#32).setWidth 32))
        (Scalar.subi (Scalar.extui (Scalar.cmpi .sgt 128#32 0#32)) (Scalar.extui (Scalar.cmpi .slt 128#32 0#32))))
      (IntOp.cmpi .ne (IntOp.remsi .vector x 128#32) 0#32))
    (IntOp.subi (IntOp.divsi .vector x 128#32) 1#32)
    (IntOp.divsi .vector x 128#32)

/-- On a row number below 1024 it is the natural quotient. -/
theorem floorDivWord_ofNat : ∀ r : Fin 1024, floorDivWord (BitVec.ofNat 32 r.val) = BitVec.ofNat 32 (r.val / 128) := by
  decide +kernel

/-- The modulus the remainder idiom divides by: 128, guarded against zero. -/
def modulus : BitVec 32 := Scalar.select (Scalar.cmpi .eq 128#32 0#32) 1#32 128#32

/-- Signed floor remainder of a 32-bit word by 128: the truncated remainder, raised by the modulus when it is not zero
    and its sign differs from the modulus's. -/
def floorModWord (x : BitVec 32) : BitVec 32 :=
  Scalar.select
    (IntOp.andi
      (IntOp.xori (IntOp.cmpi .slt (IntOp.remsi .vector x modulus) 0#32) (Scalar.cmpi .slt modulus 0#32))
      (IntOp.cmpi .ne (IntOp.remsi .vector x modulus) 0#32))
    (IntOp.addi (IntOp.remsi .vector x modulus) modulus)
    (IntOp.remsi .vector x modulus)

/-- On a row number below 1024 it is the natural remainder. -/
theorem floorModWord_ofNat : ∀ r : Fin 1024, floorModWord (BitVec.ofNat 32 r.val) = BitVec.ofNat 32 (r.val % 128) := by
  decide +kernel

/-- Two naturals below 2³² have equal 32-bit words exactly when they are equal. -/
theorem cmpi_eq_ofNat {a b : Nat} (ha : a < 2 ^ 32) (hb : b < 2 ^ 32) :
    IntOp.cmpi .eq (BitVec.ofNat 32 a) (BitVec.ofNat 32 b) = if a = b then 1#1 else 0#1 := by
  by_cases h : a = b
  · rw [if_pos h]; exact IntOp.cmpi_eq.mpr (by rw [h])
  · rw [if_neg h]
    refine eq_zero_of_ne_one fun h1 => h ?_
    have h2 := congrArg BitVec.toNat (IntOp.cmpi_eq.mp h1)
    simp only [BitVec.toNat_ofNat] at h2
    rwa [Nat.mod_eq_of_lt ha, Nat.mod_eq_of_lt hb] at h2

/-! ## The three float constants -/

/-- The pattern of 2⁻¹⁰, the kernel's folded reciprocal of the global row length. -/
theorem ofBits_inv1024 : Ideal.ofBits .f32 0x3A800000#32 = ((1 / 1024 : ℝ) : EReal) := by
  simp [Ideal.ofBits, Ideal.ieee, -EReal.coe_mul]; norm_num

/-- The pattern of 1024, the reference's divisor. -/
theorem ofBits_1024 : Ideal.ofBits .f32 0x44800000#32 = ((1024 : ℝ) : EReal) := by
  simp [Ideal.ofBits, Ideal.ieee, -EReal.coe_mul]; norm_num

/-! ## The selector and the diagonal mask at an index -/

/-- The selector payload at an index is the conversion of one comparison of words: the row word's floor quotient by
    128 against the column word. -/
theorem pay3_apply (v27 : IVec S1024x8 32) (j : S1024x8.Idx) :
    k0_pay3 (F := Ideal) v27 128#32 j
      = FloatOps.sitofp (F := Ideal) .f32
          ((IntOp.cmpi .eq (floorDivWord (v27 j)) (iota .tc S1024x8 32 [1] Gen.iota_S1024x8_d1_w32 j)).setWidth 32) := rfl

/-- The selector is one on the row's own tile row and zero elsewhere: `sel[r, i] = [r / 128 = i]`. -/
theorem sel_apply (r : Fin 1024) (i : Fin 8) :
    k0_pay3 (F := Ideal) (iota .tc S1024x8 32 [0] Cert.KernelIdeal.Facts₀.iota_S1024x8_d0_w32) 128#32 (ix2 r i)
      = if r.val / 128 = i.val then (1 : EReal) else 0 := by
  have hr := r.isLt
  have hi := i.isLt
  rw [pay3_apply, iota_single_apply, iota_single_apply]
  show FloatOps.sitofp (F := Ideal) .f32
      ((IntOp.cmpi .eq (floorDivWord (BitVec.ofNat 32 r.val)) (BitVec.ofNat 32 i.val)).setWidth 32) = _
  rw [floorDivWord_ofNat r, cmpi_eq_ofNat (by omega) (by omega)]
  by_cases h : r.val / 128 = i.val
  · rw [if_pos h, if_pos h]
    show ((((1#1 : BitVec 1).setWidth 32).toInt : ℝ) : EReal) = 1
    rw [show ((1#1 : BitVec 1).setWidth 32).toInt = 1 by decide]; norm_num
  · rw [if_neg h, if_neg h]
    show ((((0#1 : BitVec 1).setWidth 32).toInt : ℝ) : EReal) = 0
    rw [show ((0#1 : BitVec 1).setWidth 32).toInt = 0 by decide]; norm_num

/-- The mask payload at an index is one comparison of words: the row word's floor remainder by 128 against the column
    word. -/
theorem pay4_apply (j : S1024x128.Idx) :
    k0_pay4 j = IntOp.cmpi .eq (floorModWord (iota .tc S1024x128 32 [0] Gen.iota_S1024x128_d0_w32 j))
      (iota .tc S1024x128 32 [1] Gen.iota_S1024x128_d1_w32 j) := rfl

/-- The mask is set on the row's own lane: `diag[r, l] = [r % 128 = l]`. -/
theorem diag_apply (r : Fin 1024) (l : Fin 128) :
    k0_pay4 (ix2 r l) = if r.val % 128 = l.val then 1#1 else 0#1 := by
  have hr := r.isLt
  have hl := l.isLt
  rw [pay4_apply, iota_single_apply, iota_single_apply]
  show IntOp.cmpi .eq (floorModWord (BitVec.ofNat 32 r.val)) (BitVec.ofNat 32 l.val) = _
  rw [floorModWord_ofNat r, cmpi_eq_ofNat (by omega) (by omega)]

/-! ## The tile of row sums -/

/-- Row `128 i + l` of a device's block: the row whose sum the tile holds at `(i, l)`. -/
def tileRow (i : Fin 8) (l : Fin 128) : Fin 1024 := ⟨128 * i.val + l.val, by have := i.isLt; have := l.isLt; omega⟩

/-- The tile a device sends: at `(i, l)` the sum of row `128 i + l` of its block. -/
theorem pay2_apply (v : FVec Ideal S1024x512 .f32) (u : Fin 1) (i : Fin 8) (l : Fin 128) :
    k0_pay2 (F := Ideal) v (ix3 u i l) = ∑ k : Fin 512, v (ix2 (tileRow i l) k) := by
  simp only [k0_pay2]
  rw [shapeCast_ab_1ab_apply, shapeCast_self]
  refine (Ideal.multiReduction_add_single _ _ _ _ _ _).trans ?_
  refine Finset.sum_congr rfl fun (k : Fin 512) _ => ?_
  refine shapeCast_apply _ _ _ _ ?_
  rw [Shape.rowMajor_val_two, Shape.rowMajor_val_three]
  show (128 * i.val + l.val) * 512 + k.val = (i.val * 128 + l.val) * 512 + k.val
  omega

/-! ## The column cast and the matrix product -/

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

theorem lhs_0 (j : S1024x128.Idx) (q : dot_S1024x8_S8x128_S1024x128_1_0_0_1_n_n.contr.Idx) :
    (dot_S1024x8_S8x128_S1024x128_1_0_0_1_n_n.lhsIdx j q 0).val = (j 0).val := by
  unfold DotDims.lhsIdx
  rw [dif_neg (show ¬(0 : Fin S1024x8.rank) ∈ dot_S1024x8_S8x128_S1024x128_1_0_0_1_n_n.lhsBatch by decide),
    dif_pos (show (0 : Fin S1024x8.rank) ∈ dot_S1024x8_S8x128_S1024x128_1_0_0_1_n_n.lhsNonContracting by decide)]
  rfl

theorem lhs_1 (j : S1024x128.Idx) (q : dot_S1024x8_S8x128_S1024x128_1_0_0_1_n_n.contr.Idx) :
    (dot_S1024x8_S8x128_S1024x128_1_0_0_1_n_n.lhsIdx j q 1).val = (q ⟨0, by decide⟩).val :=
  dot_S1024x8_S8x128_S1024x128_1_0_0_1_n_n.lhsIdx_val_of_single rfl j q

theorem rhs_0 (j : S1024x128.Idx) (q : dot_S1024x8_S8x128_S1024x128_1_0_0_1_n_n.contr.Idx) :
    (dot_S1024x8_S8x128_S1024x128_1_0_0_1_n_n.rhsIdx j q 0).val = (q ⟨0, by decide⟩).val :=
  dot_S1024x8_S8x128_S1024x128_1_0_0_1_n_n.rhsIdx_val_of_single rfl j q

theorem rhs_1 (j : S1024x128.Idx) (q : dot_S1024x8_S8x128_S1024x128_1_0_0_1_n_n.contr.Idx) :
    (dot_S1024x8_S8x128_S1024x128_1_0_0_1_n_n.rhsIdx j q 1).val = (j 1).val := by
  unfold DotDims.rhsIdx
  rw [dif_neg (show ¬(1 : Fin S8x128.rank) ∈ dot_S1024x8_S8x128_S1024x128_1_0_0_1_n_n.rhsBatch by decide),
    dif_pos (show (1 : Fin S8x128.rank) ∈ dot_S1024x8_S8x128_S1024x128_1_0_0_1_n_n.rhsNonContracting by decide)]
  rfl

/-- The `[1024, 8] × [8, 128]` product into the zero accumulator, at `(r, l)`: the sum over the eight tile rows. -/
theorem matmul_tile_apply (A : FVec Ideal S1024x8 .f32) (B : FVec Ideal S8x128 .f32) (r : Fin 1024) (l : Fin 128) :
    matmul (F := Ideal) dot_S1024x8_S8x128_S1024x128_1_0_0_1_n_n none A B (constant (F := Ideal) S1024x128 .f32 0x00000000#32) (ix2 r l)
      = ∑ i : Fin 8, A (ix2 r i) * B (ix2 i l) := by
  simp only [matmul]
  rw [Ideal.matmul_constant_zero_apply, ← Equiv.sum_comp (contrEquiv1 dot_S1024x8_S8x128_S1024x128_1_0_0_1_n_n 8 rfl rfl).symm]
  refine Finset.sum_congr rfl fun k _ => ?_
  have hk := contrEquiv1_symm_val dot_S1024x8_S8x128_S1024x128_1_0_0_1_n_n 8 rfl rfl k
  have el : dot_S1024x8_S8x128_S1024x128_1_0_0_1_n_n.lhsIdx (ix2 r l)
      ((contrEquiv1 dot_S1024x8_S8x128_S1024x128_1_0_0_1_n_n 8 rfl rfl).symm k) = ix2 r k := funext fun a => Fin.ext (by
    match a with
    | ⟨0, _⟩ => exact lhs_0 _ _
    | ⟨1, _⟩ => exact (lhs_1 _ _).trans hk)
  have er : dot_S1024x8_S8x128_S1024x128_1_0_0_1_n_n.rhsIdx (ix2 r l)
      ((contrEquiv1 dot_S1024x8_S8x128_S1024x128_1_0_0_1_n_n 8 rfl rfl).symm k) = ix2 k l := funext fun a => Fin.ext (by
    match a with
    | ⟨0, _⟩ => exact (rhs_0 _ _).trans hk
    | ⟨1, _⟩ => exact rhs_1 _ _)
  rw [el, er]

/-! ## The stored column at an index -/

/-- The stored column at row `r`: over the 128 lanes, the masked entry of the selector's product with the scaled sum of
    the two tiles. -/
theorem pay1_apply (sel : FVec Ideal S1024x8 .f32) (diag : IVec S1024x128 1) (a b : Vec Ideal S1x8x128 .f32)
    (r : Fin 1024) (q : Fin 1) :
    k0_pay1 (F := Ideal) sel diag a b (ix2 r q)
      = ∑ l : Fin 128, Scalar.select (diag (ix2 r l))
          (∑ i : Fin 8, sel (ix2 r i) * ((a (ix3 0 i l) + b (ix3 0 i l)) * Ideal.ofBits .f32 0x3A800000#32))
          (0 : EReal) := by
  simp only [k0_pay1]
  rw [shapeCast_a_a1_apply]
  refine (Ideal.multiReduction_add_single _ _ _ _ _ _).trans ?_
  refine Finset.sum_congr rfl fun (l : Fin 128) _ => ?_
  have e : Gen.reduces_S1024x128_S1024.lift (ix1 r) l = ix2 r l :=
    funext fun c => Fin.ext (by match c with | ⟨0, _⟩ => rfl | ⟨1, _⟩ => rfl)
  rw [e, select_apply, matmul_tile_apply]
  simp only [mulf_apply, addf_apply, shapeCast_1ab_ab_apply]
  exact congrArg (Scalar.select _ _) Ideal.ofBits_zero_f32

/-! ## Where a device's block lies in the whole array -/

/-- Device `c` of the 2 × 2 mesh holds block `(c / 2, c % 2)`; an axis that is not cut has the one block `0`. -/
theorem mesh_coords : ∀ c : Fin 4, Layout.meshLin [2, 2] c.val [0] = c.val / 2 ∧ Layout.meshLin [2, 2] c.val [1] = c.val % 2
    ∧ Layout.meshLin [2, 2] c.val [] = 0 := by decide

/-- The global row of row `r` of device `c`'s block. -/
def gRow (c : Fin 4) (r : Fin 1024) : Fin 2048 := ⟨1024 * (c.val / 2) + r.val, by have := c.isLt; have := r.isLt; omega⟩

/-- The global column of column `k` of device `c`'s block. -/
def gCol (c : Fin 4) (k : Fin 512) : Fin 1024 := ⟨512 * (c.val % 2) + k.val, by have := k.isLt; omega⟩

/-- Device `c`'s block of the argument, at `(r, k)`, is the argument at the global row and column. -/
theorem block_in_apply (X : (⟨2, ![2048, 1024]⟩ : Shape).Idx → EReal) (c : Fin 4) (r : Fin 1024) (k : Fin 512) :
    (Layout.blockN ⟨2, ![1024, 512]⟩ ⟨2, ![2048, 1024]⟩ (Layout.meshBlock [2, 2] ![[0], [1]] c) X) (ix2 r k)
      = X (ix2 (gRow c r) (gCol c k)) := by
  obtain ⟨h0, h1, -⟩ := mesh_coords c
  rw [Layout.blockN_apply]
  refine congrArg X (funext fun a => Fin.ext ?_)
  match a with
  | ⟨0, _⟩ =>
    show Layout.meshLin [2, 2] c.val [0] * 1024 + r.val = 1024 * (c.val / 2) + r.val
    rw [h0]; omega
  | ⟨1, _⟩ =>
    show Layout.meshLin [2, 2] c.val [1] * 512 + k.val = 512 * (c.val % 2) + k.val
    rw [h1]; omega

/-- Device `c`'s block of the result column, at `(r, 0)`, is the column at the global row. -/
theorem block_out_apply (Y : (⟨2, ![2048, 1]⟩ : Shape).Idx → EReal) (c : Fin 4) (r : Fin 1024) (q : Fin 1) :
    (Layout.blockN ⟨2, ![1024, 1]⟩ ⟨2, ![2048, 1]⟩ (Layout.meshBlock [2, 2] ![[0], []] c) Y) (ix2 r q)
      = Y (ix2 (gRow c r) q) := by
  obtain ⟨h0, -, h2⟩ := mesh_coords c
  rw [Layout.blockN_apply]
  refine congrArg Y (funext fun a => Fin.ext ?_)
  match a with
  | ⟨0, _⟩ =>
    show Layout.meshLin [2, 2] c.val [0] * 1024 + r.val = 1024 * (c.val / 2) + r.val
    rw [h0]; omega
  | ⟨1, _⟩ =>
    show Layout.meshLin [2, 2] c.val [] * 1 + q.val = q.val
    rw [h2]; omega

/-! ## The reference at an index -/

/-- The reference's mean of global row `R`: the row's sum times the reciprocal of its length, on every extended real. -/
theorem ref_apply (X : (⟨Cert.ReferenceIdeal.S2048x1024, .f32⟩ : BufTy).Contents (Elt Ideal)) (R : Fin 2048) (q : Fin 1) :
    Cert.ReferenceIdeal.Read.val_main_v3 (F := Ideal) X (ix2 R q)
      = (∑ k : Fin 1024, X (ix2 R k)) * ((1 / 1024 : ℝ) : EReal) := by
  rw [Cert.ReferenceIdeal.Read.val_main_v3_apply, Cert.ReferenceIdeal.Read.val_main_v1_apply,
    Cert.ReferenceIdeal.Read.val_main_v0_apply, Cert.ReferenceIdeal.Read.val_main_v2_apply,
    Cert.ReferenceIdeal.Read.val_main_cst_apply, Cert.ReferenceIdeal.Read.val_main_cst_0_apply]
  show Ideal.div (Ideal.ofBits .f32 0x00000000#32 + ∑ k : Fin 1024, X _) (Ideal.ofBits .f32 0x44800000#32) = _
  rw [Ideal.ofBits_zero_f32, zero_add, ofBits_1024, Ideal.div_coe (by norm_num)]
  refine congrArg (· * _) (Finset.sum_congr rfl fun k _ => congrArg X (funext fun a => Fin.ext ?_))
  match a with
  | ⟨0, _⟩ => rfl
  | ⟨1, _⟩ => rfl

/-! ## One-hot sums, and a row's sum in two halves -/

/-- Against the mask of row `r` a sum over the lanes keeps the entry of lane `r % 128`. -/
theorem sum_lane (r : Fin 1024) (g : Fin 128 → EReal) :
    ∑ l : Fin 128, Scalar.select (if r.val % 128 = l.val then 1#1 else 0#1) (g l) 0
      = g ⟨r.val % 128, Nat.mod_lt _ (by decide)⟩ := by
  rw [Finset.sum_eq_single (⟨r.val % 128, Nat.mod_lt _ (by decide)⟩ : Fin 128)]
  · rw [if_pos rfl, select_one]
  · intro l _ hl
    rw [if_neg fun h => hl (Fin.ext h.symm), select_zero]
  · intro h; exact absurd (Finset.mem_univ _) h

/-- Against the selector of row `r` a sum over the tile rows keeps the entry of tile row `r / 128`: only `1 · y = y`,
    `0 · y = 0` and `x + 0 = x` on the extended reals. -/
theorem sum_tileRow (r : Fin 1024) (g : Fin 8 → EReal) :
    ∑ i : Fin 8, (if r.val / 128 = i.val then (1 : EReal) else 0) * g i
      = g ⟨r.val / 128, by have := r.isLt; omega⟩ := by
  rw [Finset.sum_eq_single (⟨r.val / 128, by have := r.isLt; omega⟩ : Fin 8)]
  · rw [if_pos rfl, one_mul]
  · intro i _ hi
    rw [if_neg fun h => hi (Fin.ext h.symm), zero_mul]
  · intro h; exact absurd (Finset.mem_univ _) h

/-- A sum over 1024 columns is the sum over the first 512 plus the sum over the last 512. -/
theorem sum_halves (f : Fin 1024 → EReal) :
    ∑ k : Fin 1024, f k
      = ∑ k : Fin 512, f ⟨k.val, by have := k.isLt; omega⟩ + ∑ k : Fin 512, f ⟨512 + k.val, by have := k.isLt; omega⟩ :=
  Fin.sum_univ_add (a := 512) (b := 512) f

/-- The two devices of a mesh row hold the two halves of each of their global rows: their two row sums add up to the
    whole row's sum, in either order. -/
theorem halves_eq (X : (⟨2, ![2048, 1024]⟩ : Shape).Idx → EReal) (c : Fin 4) (r : Fin 1024) :
    (∑ k : Fin 512, X (ix2 (gRow c r) (gCol c k)))
        + ∑ k : Fin 512, X (ix2 (gRow (Cert.Mesh.peer c) r) (gCol (Cert.Mesh.peer c) k))
      = ∑ k : Fin 1024, X (ix2 (gRow c r) k) := by
  have hrow : gRow (Cert.Mesh.peer c) r = gRow c r :=
    Fin.ext (by show 1024 * ((Cert.Mesh.peer c).val / 2) + r.val = 1024 * (c.val / 2) + r.val; rw [Cert.Mesh.peer_div])
  rw [hrow, sum_halves fun k => X (ix2 (gRow c r) k)]
  rcases Nat.mod_two_eq_zero_or_one c.val with h | h
  · have e1 : ∀ k : Fin 512, gCol c k = ⟨k.val, by have := k.isLt; omega⟩ := fun k =>
      Fin.ext (by show 512 * (c.val % 2) + k.val = k.val; omega)
    have e2 : ∀ k : Fin 512, gCol (Cert.Mesh.peer c) k = ⟨512 + k.val, by have := k.isLt; omega⟩ := fun k =>
      Fin.ext (by show 512 * ((Cert.Mesh.peer c).val % 2) + k.val = 512 + k.val; rw [Cert.Mesh.peer_mod]; omega)
    simp only [e1, e2]
  · have e1 : ∀ k : Fin 512, gCol c k = ⟨512 + k.val, by have := k.isLt; omega⟩ := fun k =>
      Fin.ext (by show 512 * (c.val % 2) + k.val = 512 + k.val; omega)
    have e2 : ∀ k : Fin 512, gCol (Cert.Mesh.peer c) k = ⟨k.val, by have := k.isLt; omega⟩ := fun k =>
      Fin.ext (by show 512 * ((Cert.Mesh.peer c).val % 2) + k.val = k.val; rw [Cert.Mesh.peer_mod]; omega)
    simp only [e1, e2]
    exact add_comm _ _

/-! ## The block of the mean -/

/-- With the selector and the mask read at row `r`, the stored column at `r` is the scaled sum of the two tiles at
    `(r / 128, r % 128)`. -/
theorem pay1_pick (sel : FVec Ideal S1024x8 .f32) (diag : IVec S1024x128 1) (a b : Vec Ideal S1x8x128 .f32)
    (r : Fin 1024) (q : Fin 1)
    (hsel : ∀ i : Fin 8, sel (ix2 r i) = if r.val / 128 = i.val then (1 : EReal) else 0)
    (hdiag : ∀ l : Fin 128, diag (ix2 r l) = if r.val % 128 = l.val then 1#1 else 0#1) :
    k0_pay1 (F := Ideal) sel diag a b (ix2 r q)
      = (a (ix3 0 ⟨r.val / 128, by have := r.isLt; omega⟩ ⟨r.val % 128, Nat.mod_lt _ (by decide)⟩)
          + b (ix3 0 ⟨r.val / 128, by have := r.isLt; omega⟩ ⟨r.val % 128, Nat.mod_lt _ (by decide)⟩))
        * Ideal.ofBits .f32 0x3A800000#32 := by
  rw [pay1_apply]
  simp only [hsel, hdiag]
  rw [sum_lane, sum_tileRow]
theorem block_eq (X : (⟨Cert.ReferenceIdeal.S2048x1024, .f32⟩ : BufTy).Contents (Elt Ideal)) (c : Fin 4) :
    Cert.KernelIdeal.Gen.k0_pay1 (F := Ideal)
      (Cert.KernelIdeal.Gen.k0_pay3 (F := Ideal) (iota .tc Cert.KernelIdeal.S1024x8 32 [0] Cert.KernelIdeal.Facts₀.iota_S1024x8_d0_w32) 128#32)
      Cert.KernelIdeal.Gen.k0_pay4
      (Cert.KernelIdeal.Gen.k0_pay2 (F := Ideal) (Layout.blockN ⟨2, ![1024, 512]⟩ ⟨2, ![2048, 1024]⟩ (Layout.meshBlock [2, 2] ![[0], [1]] c) X))
      (Cert.KernelIdeal.Gen.k0_pay2 (F := Ideal) (Layout.blockN ⟨2, ![1024, 512]⟩ ⟨2, ![2048, 1024]⟩ (Layout.meshBlock [2, 2] ![[0], [1]] (Cert.Mesh.peer c)) X))
    = Layout.blockN ⟨2, ![1024, 1]⟩ ⟨2, ![2048, 1]⟩ (Layout.meshBlock [2, 2] ![[0], []] c) (Cert.ReferenceIdeal.Read.val_main_v3 (F := Ideal) X) := by
  funext j
  obtain ⟨r, q, rfl⟩ : ∃ (r : Fin 1024) (q : Fin 1), j = ix2 r q := ⟨j 0, j 1, eq_ix2 j⟩
  rw [pay1_pick _ _ _ _ r q (sel_apply r) (diag_apply r), block_out_apply, ref_apply, pay2_apply, pay2_apply,
    ofBits_inv1024]
  have hrow : tileRow ⟨r.val / 128, by have := r.isLt; omega⟩ ⟨r.val % 128, Nat.mod_lt _ (by decide)⟩ = r :=
    Fin.ext (by show 128 * (r.val / 128) + r.val % 128 = r.val; omega)
  simp only [hrow, block_in_apply]
  rw [halves_eq]

end Cert.MeanValue

end
-- ==== Proof.RefSide.lean ====
import proofs.«900961_g7700000000000962_dist_mean_ax1_xy_m1024_n512_v7x_xy2x2_bf16_1_alg».proof.Defs
import proofs.«900961_g7700000000000962_dist_mean_ax1_xy_m1024_n512_v7x_xy2x2_bf16_1_alg».proof.Proof.Gen.ReferenceIdeal
import proofs.«900961_g7700000000000962_dist_mean_ax1_xy_m1024_n512_v7x_xy2x2_bf16_1_alg».proof.Proof.Gen.ReferenceIdeal.Run
import proofs.«900961_g7700000000000962_dist_mean_ax1_xy_m1024_n512_v7x_xy2x2_bf16_1_alg».proof.Proof.Gen.ReferenceIdeal.Read
import proofs.«900961_g7700000000000962_dist_mean_ax1_xy_m1024_n512_v7x_xy2x2_bf16_1_alg».proof.Proof.Gen.Pre_finite_inputs_ReferenceIdeal

/-!
# The reference's side

The reference runs on one device over the whole array: its generated run gives the result at the composed term of
its six host operations — the row sums over all 1024 columns divided by 1024 — with the argument unchanged.
-/

noncomputable section

namespace Cert.RefSide

open Idealize.ShloMosaic Idealize.ShloMosaic.TcCoe Idealize.SL.Sem

/-- The reference terminates with its argument unchanged: its run with the result's value dropped. -/
theorem frame : Cert.frame_ReferenceIdeal := fun m ρ _ =>
  (θ_run Cert.ReferenceIdeal.defs _ _).mono (fun _ h c => (h c).2) (Cert.ReferenceIdeal.Value.run (F := Ideal) m ρ)

end Cert.RefSide

end
-- ==== Proof.lean ====
/- The proof of `Cert.Claim`: a mean over the columns of `x : [2048, 1024]`, computed on a 2 × 2 mesh.

   Device `c` holds the block `(c / 2, c % 2)` of `x` and must end with block `c / 2` of the column of row means.
   It sums its 512 columns into a tile, swaps tiles with the device holding the other 512 columns of the same rows
   (an entry handshake on a semaphore, then one remote copy), adds the two tiles and scales by `2⁻¹⁰`. Over the
   extended reals that is the sum of the 1024 columns divided by 1024 — the reference — with no finiteness needed:
   only commutativity and associativity of `+`, `0 · y = 0`, `1 · y = y` and `x / 1024 = x · 2⁻¹⁰`.

   The frames: each program terminates from any memory with zero counters and leaves its argument unchanged — for
   the kernel (at both instances) because the exchange cannot deadlock (waits go up in level) and touches only its
   own buffers; for the reference by its generated run. The idealization rewrote nothing, so `preserves` is trivial. -/
import proofs.«900961_g7700000000000962_dist_mean_ax1_xy_m1024_n512_v7x_xy2x2_bf16_1_alg».proof.Defs
import proofs.«900961_g7700000000000962_dist_mean_ax1_xy_m1024_n512_v7x_xy2x2_bf16_1_alg».proof.Proof.Gen.Kernel
import proofs.«900961_g7700000000000962_dist_mean_ax1_xy_m1024_n512_v7x_xy2x2_bf16_1_alg».proof.Proof.Gen.Kernel.Skeleton
import proofs.«900961_g7700000000000962_dist_mean_ax1_xy_m1024_n512_v7x_xy2x2_bf16_1_alg».proof.Proof.Gen.Kernel.Launch
import proofs.«900961_g7700000000000962_dist_mean_ax1_xy_m1024_n512_v7x_xy2x2_bf16_1_alg».proof.Proof.Gen.Kernel.Points
import proofs.«900961_g7700000000000962_dist_mean_ax1_xy_m1024_n512_v7x_xy2x2_bf16_1_alg».proof.Proof.Gen.Kernel.Frame
import proofs.«900961_g7700000000000962_dist_mean_ax1_xy_m1024_n512_v7x_xy2x2_bf16_1_alg».proof.Proof.Gen.KernelIdeal
import proofs.«900961_g7700000000000962_dist_mean_ax1_xy_m1024_n512_v7x_xy2x2_bf16_1_alg».proof.Proof.Gen.KernelIdeal.Skeleton
import proofs.«900961_g7700000000000962_dist_mean_ax1_xy_m1024_n512_v7x_xy2x2_bf16_1_alg».proof.Proof.Gen.KernelIdeal.Launch
import proofs.«900961_g7700000000000962_dist_mean_ax1_xy_m1024_n512_v7x_xy2x2_bf16_1_alg».proof.Proof.Gen.KernelIdeal.Points
import proofs.«900961_g7700000000000962_dist_mean_ax1_xy_m1024_n512_v7x_xy2x2_bf16_1_alg».proof.Proof.Gen.KernelIdeal.Frame
import proofs.«900961_g7700000000000962_dist_mean_ax1_xy_m1024_n512_v7x_xy2x2_bf16_1_alg».proof.Proof.Gen.ReferenceIdeal
import proofs.«900961_g7700000000000962_dist_mean_ax1_xy_m1024_n512_v7x_xy2x2_bf16_1_alg».proof.Proof.Gen.Pre_finite_inputs_Kernel
import proofs.«900961_g7700000000000962_dist_mean_ax1_xy_m1024_n512_v7x_xy2x2_bf16_1_alg».proof.Proof.Gen.Pre_finite_inputs_ReferenceIdeal
import proofs.«900961_g7700000000000962_dist_mean_ax1_xy_m1024_n512_v7x_xy2x2_bf16_1_alg».proof.Proof.KernelFinal
import proofs.«900961_g7700000000000962_dist_mean_ax1_xy_m1024_n512_v7x_xy2x2_bf16_1_alg».proof.Proof.KernelIdealFinal
import proofs.«900961_g7700000000000962_dist_mean_ax1_xy_m1024_n512_v7x_xy2x2_bf16_1_alg».proof.Proof.MeanValue
import proofs.«900961_g7700000000000962_dist_mean_ax1_xy_m1024_n512_v7x_xy2x2_bf16_1_alg».proof.Proof.RefSide
import Idealize.ShloMosaic.Adequacy
import Idealize.ShloMosaic.Init

noncomputable section

namespace Cert.Proof

open Idealize.ShloMosaic Idealize.SL.Sem

/-- The word-level kernel terminates and leaves `x` unchanged: its run with the result's value dropped. -/
theorem frame_k : Cert.frame_Kernel := fun m g _ =>
  (θ_run Cert.Kernel.defs _ _).mono (fun _ h c => (h c).2) (Cert.KernelRun.run (F := Bits) m g)

/-- The same for the idealized kernel. -/
theorem frame_ki : Cert.frame_KernelIdeal := fun m g _ =>
  (θ_run Cert.KernelIdeal.defs _ _).mono (fun _ h c => (h c).2) (Cert.KernelIdealRun.run (F := Ideal) m g)

/-- At the ideal instance each device's result is its block of the reference's: the device's own tile and its
    partner's are the row sums of the two halves of the same global rows, and their scaled sum is the row mean. -/
theorem algebraic : Cert.algebraic_KernelIdeal_ReferenceIdeal := by
  intro m g m' g' _ hagree
  refine ⟨Cert.ReferenceIdeal.Read.val_main_v3 (F := Ideal)
    (m' (((0 : Dev Cert.ReferenceIdeal.nD).tc : Thread Cert.ReferenceIdeal.nD Cert.ReferenceIdeal.τ).loc Cert.ReferenceIdeal.main_arg0)), ?_, ?_⟩
  · refine (θ_run Cert.KernelIdeal.defs _ _).mono (fun _ h c => ⟨(h c).1.trans ?_, (h c).2⟩) (Cert.KernelIdealRun.run (F := Ideal) m g)
    unfold Cert.KernelIdealRun.outAt Cert.KernelIdealRun.selV Cert.KernelIdealRun.diagV
    rw [Cert.KernelIdealRun.xstg_eq, Cert.KernelIdealRun.xstg_eq, hagree c, hagree (Cert.KernelIdealRun.pr c)]
    exact Cert.MeanValue.block_eq _ c
  · exact (θ_run Cert.ReferenceIdeal.defs _ _).mono
      (fun _ h => ⟨(h 0).1.trans (Cert.ReferenceIdeal.Read.val_main_v3_eq _), (h 0).2⟩)
      (Cert.ReferenceIdeal.Value.run (F := Ideal) m' g')

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, Cert.RefSide.frame, trivial, algebraic⟩

end Cert.Proof

end
